-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20x1x128x128x128 : Shape := ⟨5, ![20, 1, 128, 128, 128]⟩
abbrev S_ : Shape := ⟨0, ![]⟩

class Facts : Prop where
  bcast_S_S20x1x128x128x128 : S_.BroadcastsInDim S20x1x128x128x128 (![] : Fin 0 → Fin S20x1x128x128x128.rank)
  reducesTo_S20x1x128x128x128_S_d0_1_2_3_4 : S20x1x128x128x128.ReducesTo [0, 1, 2, 3, 4] S_
  h_S_ : 0 < S_.numel

variable [Facts]

def fn {F : FTy → Type} [FloatOps F] (main_arg0 : FVec F S20x1x128x128x128 .f32) (main_arg1 : FVec F S20x1x128x128x128 .f32) : IVec S_ 1 :=
  let main_v0 : FVec F S20x1x128x128x128 .f32 := Host.absf main_arg0
  let main_cst : FVec F S_ .f32 := constant S_ .f32 0x7F800000#32
  let main_v1 : FVec F S20x1x128x128x128 .f32 := broadcastInDim S20x1x128x128x128 ![] bcast_S_S20x1x128x128x128 main_cst
  let main_v2 : IVec S20x1x128x128x128 1 := cmpf .olt main_v0 main_v1
  let main_c : IVec S_ 1 := constantI S_ 1 1#1
  let main_v3 : IVec S_ 1 := (fun x v => Host.reduce IntOp.andi x v reducesTo_S20x1x128x128x128_S_d0_1_2_3_4 h_S_) main_v2 main_c
  let main_v4 : FVec F S20x1x128x128x128 .f32 := Host.absf main_arg1
  let main_cst_0 : FVec F S_ .f32 := constant S_ .f32 0x7F800000#32
  let main_v5 : FVec F S20x1x128x128x128 .f32 := broadcastInDim S20x1x128x128x128 ![] bcast_S_S20x1x128x128x128 main_cst_0
  let main_v6 : IVec S20x1x128x128x128 1 := cmpf .olt main_v4 main_v5
  let main_c_1 : IVec S_ 1 := constantI S_ 1 1#1
  let main_v7 : IVec S_ 1 := (fun x v => Host.reduce IntOp.andi x v reducesTo_S20x1x128x128x128_S_d0_1_2_3_4 h_S_) main_v6 main_c_1
  let main_v8 : IVec S_ 1 := andi main_v3 main_v7
  main_v8
-- ==== Kernel.lean ====
abbrev S20x1x128x128x128 : Shape := ⟨5, ![20, 1, 128, 128, 128]⟩
abbrev S20x128x128x128 : Shape := ⟨4, ![20, 128, 128, 128]⟩
abbrev S20x1x128 : Shape := ⟨3, ![20, 1, 128]⟩
abbrev S1x32x128x128 : Shape := ⟨4, ![1, 32, 128, 128]⟩
abbrev S1x1x128 : Shape := ⟨3, ![1, 1, 128]⟩
abbrev S1x32x128 : Shape := ⟨3, ![1, 32, 128]⟩
abbrev S1x32 : Shape := ⟨2, ![1, 32]⟩
abbrev S1 : Shape := ⟨1, ![1]⟩
abbrev S1x1 : Shape := ⟨2, ![1, 1]⟩
abbrev S1x1x1 : Shape := ⟨3, ![1, 1, 1]⟩
abbrev S20x1x1 : Shape := ⟨3, ![20, 1, 1]⟩
abbrev S20 : Shape := ⟨1, ![20]⟩
abbrev S_ : Shape := ⟨0, ![]⟩

abbrev nBuf : Space → Nat
  | .hbm => 31
  | .vmem => 10
  | .smem => 0
  | _ => 0

abbrev bufTy : (tb : Table) → Fin (tcTables nBuf tb) → BufTy
  | .hbm, ⟨0, _⟩ => ⟨S20x1x128x128x128, .f32⟩
  | .hbm, ⟨1, _⟩ => ⟨S20x1x128x128x128, .f32⟩
  | .hbm, ⟨2, _⟩ => ⟨S20x128x128x128, .f32⟩
  | .hbm, ⟨3, _⟩ => ⟨S20x128x128x128, .f32⟩
  | .hbm, ⟨4, _⟩ => ⟨S20x1x128, .f32⟩
  | .hbm, ⟨5, _⟩ => ⟨S20x1x128, .f32⟩
  | .hbm, ⟨6, _⟩ => ⟨S20x1x128, .f32⟩
  | .hbm, ⟨7, _⟩ => ⟨S20x1x1, .f32⟩
  | .hbm, ⟨8, _⟩ => ⟨S20, .f32⟩
  | .hbm, ⟨9, _⟩ => ⟨S20x1x1, .f32⟩
  | .hbm, ⟨10, _⟩ => ⟨S20, .f32⟩
  | .hbm, ⟨11, _⟩ => ⟨S20x1x1, .f32⟩
  | .hbm, ⟨12, _⟩ => ⟨S20, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S20, .f32⟩
  | .hbm, ⟨20, _⟩ => ⟨S20, .f32⟩
  | .hbm, ⟨21, _⟩ => ⟨S_, .f32⟩
  | .hbm, ⟨22, _⟩ => ⟨S20, .f32⟩
  | .hbm, ⟨23, _⟩ => ⟨S20, .f32⟩
  | .hbm, ⟨24, _⟩ => ⟨S20, .f32⟩
  | .hbm, ⟨25, _⟩ => ⟨S20, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1x32x128x128, .f32⟩
  | .local _ .vmem, ⟨1, _⟩ => ⟨S1x32x128x128, .f32⟩
  | .local _ .vmem, ⟨2, _⟩ => ⟨S1x32x128x128, .f32⟩
  | .local _ .vmem, ⟨3, _⟩ => ⟨S1x32x128x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | _, _ => ⟨S20x1x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![20, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S20x1x128x128x128_S20x128x128x128 : S20x1x128x128x128.ShapeCasts S20x128x128x128
  inb_S1x1x128_S1x1x128_0_0_0 : ∀ a, (![0, 0, 0] : Fin 3 → Nat) a + S1x1x128.size a ≤ S1x1x128.size a
  h_S1x1x128 : 0 < S1x1x128.numel
  inb_S1x32x128x128_S1x32x128x128_0_0_0_0 : ∀ a, (![0, 0, 0, 0] : Fin 4 → Nat) a + S1x32x128x128.size a ≤ S1x32x128x128.size a
  h_S1x32x128x128 : 0 < S1x32x128x128.numel
  shapeCasts_S1x32x128x128_S1x32x128x128 : S1x32x128x128.ShapeCasts S1x32x128x128
  natLt_1_32 : 1 < 32
  reduces_S1x32x128x128_S1x32x128 : S1x32x128x128.Reduces [3] S1x32x128
  reduces_S1x32x128_S1x32 : S1x32x128.Reduces [2] S1x32
  reduces_S1x32_S1 : S1x32.Reduces [1] S1
  shapeCasts_S1_S1x1 : S1.ShapeCasts S1x1
  shapeCasts_S1x1x128_S1x1x128 : S1x1x128.ShapeCasts S1x1x128
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  slices_S20x1x128_S20x1x1_0_0_0 : S20x1x128.Slices ![0, 0, 0] S20x1x1
  shapeCasts_S20x1x1_S20 : S20x1x1.ShapeCasts S20
  reducesTo_S20_S_d0 : S20.ReducesTo [0] S_
  h_S_ : 0 < S_.numel
  bcast_S_S20 : S_.BroadcastsInDim S20 (![] : Fin 0 → Fin S20.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x128.size a ≤ S20x128x128x128.size a
  hwx0_0 : ∀ i : grid0.Coords, EltTy.bits .f32 = 32 ∨ (Rect.block (s := S20x128x128x128) S1x32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128x128.size a ≤ S20x128x128x128.size a
  hwx0_1 : ∀ i : grid0.Coords, EltTy.bits .f32 = 32 ∨ (Rect.block (s := S20x128x128x128) S1x32x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S20x1x128.size a
  hwx0_2 : ∀ i : grid0.Coords, EltTy.bits .f32 = 32 ∨ (Rect.block (s := S20x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S20x1x128.size a
  hwx0_3 : ∀ i : grid0.Coords, EltTy.bits .f32 = 32 ∨ (Rect.block (s := S20x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S20x1x128.size a
  hwx0_4 : ∀ i : grid0.Coords, EltTy.bits .f32 = 32 ∨ (Rect.block (s := S20x1x128) S1x1x128.size (cc0_transform_4 i) (hinb0_4 i)).WholeWords (EltTy.packing .f32)

variable [Facts₀]

abbrev win0_0 : Pipeline.Window sig grid0 :=
  Pipeline.Window.ofSpec (Memref.whole main_v0) S1x32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S20x1x128x128x128 : Shape := ⟨5, ![20, 1, 128, 128, 128]⟩
abbrev S_ : Shape := ⟨0, ![]⟩
abbrev S20x2097152 : Shape := ⟨2, ![20, 2097152]⟩
abbrev S20 : Shape := ⟨1, ![20]⟩

abbrev nBuf : Space → Nat
  | .hbm => 60
  | .vmem => 0
  | .smem => 0
  | _ => 0

abbrev bufTy : (tb : Table) → Fin (tcTables nBuf tb) → BufTy
  | .hbm, ⟨0, _⟩ => ⟨S20x1x128x128x128, .f32⟩
  | .hbm, ⟨1, _⟩ => ⟨S20x1x128x128x128, .f32⟩
  | .hbm, ⟨2, _⟩ => ⟨S20x1x128x128x128, .f32⟩
  | .hbm, ⟨3, _⟩ => ⟨S_, .f32⟩
  | .hbm, ⟨4, _⟩ => ⟨S_, .f32⟩
  | .hbm, ⟨5, _⟩ => ⟨S20x1x128x128x128, .f32⟩
  | .hbm, ⟨6, _⟩ => ⟨S20x1x128x128x128, .f32⟩
  | .hbm, ⟨7, _⟩ => ⟨S20x1x128x128x128, .f32⟩
  | .hbm, ⟨8, _⟩ => ⟨S20x1x128x128x128, .f32⟩
  | .hbm, ⟨9, _⟩ => ⟨S_, .f32⟩
  | .hbm, ⟨10, _⟩ => ⟨S_, .f32⟩
  | .hbm, ⟨11, _⟩ => ⟨S20x1x128x128x128, .f32⟩
  | .hbm, ⟨12, _⟩ => ⟨S20x1x128x128x128, .f32⟩
  | .hbm, ⟨13, _⟩ => ⟨S20x1x128x128x128, .f32⟩
  | .hbm, ⟨14, _⟩ => ⟨S_, .f32⟩
  | .hbm, ⟨15, _⟩ => ⟨S20x1x128x128x128, .f32⟩
  | .hbm, ⟨16, _⟩ => ⟨S20x1x128x128x128, .f32⟩
  | .hbm, ⟨17, _⟩ => ⟨S20x1x128x128x128, .f32⟩
  | .hbm, ⟨18, _⟩ => ⟨S20x1x128x128x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S20x1x128x128x128, .f32⟩
  | .hbm, ⟨26, _⟩ => ⟨S20x1x128x128x128, .i1⟩
  | .hbm, ⟨27, _⟩ => ⟨S_, .i32⟩
  | .hbm, ⟨28, _⟩ => ⟨S_, .i32⟩
  | .hbm, ⟨29, _⟩ => ⟨S20x1x128x128x128, .i32⟩
  | .hbm, ⟨30, _⟩ => ⟨S20x1x128x128x128, .i32⟩
  | .hbm, ⟨31, _⟩ => ⟨S20x1x128x128x128, .i32⟩
  | .hbm, ⟨32, _⟩ => ⟨S20x1x128x128x128, .i32⟩
  | .hbm, ⟨33, _⟩ => ⟨S_, .i32⟩
  | .hbm, ⟨34, _⟩ => ⟨S20x1x128x128x128, .i32⟩
  | .hbm, ⟨35, _⟩ => ⟨S20x1x128x128x128, .i1⟩
  | .hbm, ⟨36, _⟩ => ⟨S20x1x128x128x128, .f32⟩
  | .hbm, ⟨37, _⟩ => ⟨S20x2097152, .f32⟩
  | .hbm, ⟨38, _⟩ => ⟨S_, .f32⟩
  | .hbm, ⟨39, _⟩ => ⟨S20, .f32⟩
  | .hbm, ⟨40, _⟩ => ⟨S_, .f32⟩
  | .hbm, ⟨41, _⟩ => ⟨S20, .f32⟩
  | .hbm, ⟨42, _⟩ => ⟨S20, .f32⟩
  | .hbm, ⟨43, _⟩ => ⟨S_, .i32⟩
  | .hbm, ⟨44, _⟩ => ⟨S20x1x128x128x128, .i32⟩
  | .hbm, ⟨45, _⟩ => ⟨S20x1x128x128x128, .i1⟩
  | .hbm, ⟨46, _⟩ => ⟨S20x1x128x128x128, .f32⟩
  | .hbm, ⟨47, _⟩ => ⟨S20x2097152, .f32⟩
  | .hbm, ⟨48, _⟩ => ⟨S_, .f32⟩
  | .hbm, ⟨49, _⟩ => ⟨S20, .f32⟩
  | .hbm, ⟨50, _⟩ => ⟨S_, .f32⟩
  | .hbm, ⟨51, _⟩ => ⟨S20, .f32⟩
  | .hbm, ⟨52, _⟩ => ⟨S20, .f32⟩
  | .hbm, ⟨53, _⟩ => ⟨S20, .f32⟩
  | .hbm, ⟨54, _⟩ => ⟨S20, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S20x1x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call1_v0 : Ref sig .tc := ⟨.hbm, 10, rfl⟩
abbrev main_call1_v1 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_c_5 : Ref sig .tc := ⟨.hbm, 28, rfl⟩
abbrev main_call2_v0 : Ref sig .tc := ⟨.hbm, 29, rfl⟩
abbrev main_call2_v1 : Ref sig .tc := ⟨.hbm, 30, rfl⟩
abbrev main_v15 : Ref sig .tc := ⟨.hbm, 31, rfl⟩
abbrev main_v16 : Ref sig .tc := ⟨.hbm, 32, rfl⟩
abbrev main_c_6 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_cst_8 : Ref sig .tc := ⟨.hbm, 40, rfl⟩
abbrev main_v22 : Ref sig .tc := ⟨.hbm, 41, rfl⟩
abbrev main_v23 : Ref sig .tc := ⟨.hbm, 42, rfl⟩
abbrev main_c_9 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_10 : Ref sig .tc := ⟨.hbm, 48, rfl⟩
abbrev main_v28 : Ref sig .tc := ⟨.hbm, 49, rfl⟩
abbrev main_cst_11 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_12 : Ref sig .tc := ⟨.hbm, 55, rfl⟩
abbrev main_v33 : Ref sig .tc := ⟨.hbm, 56, rfl⟩
abbrev main_cst_13 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]

class Facts₀ : Prop where
  bcast_S_S20x1x128x128x128 : S_.BroadcastsInDim S20x1x128x128x128 (![] : Fin 0 → Fin S20x1x128x128x128.rank)
  reducesTo_S20x1x128x128x128_S_d0_1_2_3_4 : S20x1x128x128x128.ReducesTo [0, 1, 2, 3, 4] S_
  h_S_ : 0 < S_.numel
  shapeCasts_S20x1x128x128x128_S20x2097152 : S20x1x128x128x128.ShapeCasts S20x2097152
  reducesTo_S20x2097152_S20_d1 : S20x2097152.ReducesTo [1] S20
  bcast_S_S20 : S_.BroadcastsInDim S20 (![] : Fin 0 → Fin S20.rank)
  reducesTo_S20_S_d0 : S20.ReducesTo [0] S_

variable [Facts₀]

class Facts : Prop extends Facts₀ where

variable [Facts]
-- ==== Proof.Found.lean ====
/-
  What one grid step leaves in each of the three running-sum blocks, as a value: at the first slab of a batch entry the block
  is reset to zero and the slab's partial sum added to that zero; at the other three slabs the partial sum is added to what the
  step before left.  Each is the block's one covering store read back.
-/
import proofs.«166350_j8254927143083_1_alg».proof.Proof.Gen.KernelIdeal.Frame
import Idealize.ShloMosaic.Lib.Pipeline.Value
import Idealize.ShloMosaic.Lib.Tactic

noncomputable section

namespace Cert.KernelIdeal.Found

open Idealize.ShloMosaic Idealize.ShloMosaic.TcCoe Idealize.SL.Sem
open Cert.KernelIdeal Cert.KernelIdeal.Gen

variable {F : FTy → Type} [FloatOps F]

/-- The zero offset of a rank-3 block, as a constant function. -/
private theorem hz3 : (![0, 0, 0] : Fin 3 → Nat) = fun _ => 0 := funext fun a => by fin_cases a <;> rfl

/-- The zero offset of a rank-4 block, as a constant function. -/
private theorem hz4 : (![0, 0, 0, 0] : Fin 4 → Nat) = fun _ => 0 := funext fun a => by fin_cases a <;> rfl

/-- First slab, log-likelihood block: the slab's sum added to the stored zero block. -/
theorem first_bce (c : Dev nD) (i : grid0.Coords) (a2 : Memref sig .tc .vmem S1x32x128x128 .f32) (h2 : a2.IsWhole)
    (a3 : Memref sig .tc .vmem S1x32x128x128 .f32) (h3 : a3.IsWhole) (a4 : Memref sig .tc .vmem S1x1x128 .f32) (h4 : a4.IsWhole)
    (a5 : Memref sig .tc .vmem S1x1x128 .f32) (h5 : a5.IsWhole) (a6 : Memref sig .tc .vmem S1x1x128 .f32) (h6 : a6.IsWhole)
    (hc : cond0_0 i) (x0 x1 : Vec F S1x32x128x128 .f32) :
    out0_A_2 c i a2 h2 a3 h3 a4 h4 a5 h5 a6 h6 hc x0 x1 = k0_pay1 (k0_pay10 x0 x1) (k0_pay4 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, View.ld_unit_zero (S := S1x32x128x128) hz4]

/-- First slab, `x ≤ 1/2` count block. -/
theorem first_low (c : Dev nD) (i : grid0.Coords) (a2 : Memref sig .tc .vmem S1x32x128x128 .f32) (h2 : a2.IsWhole)
    (a3 : Memref sig .tc .vmem S1x32x128x128 .f32) (h3 : a3.IsWhole) (a4 : Memref sig .tc .vmem S1x1x128 .f32) (h4 : a4.IsWhole)
    (a5 : Memref sig .tc .vmem S1x1x128 .f32) (h5 : a5.IsWhole) (a6 : Memref sig .tc .vmem S1x1x128 .f32) (h6 : a6.IsWhole)
    (hc : cond0_0 i) (x0 x1 : Vec F S1x32x128x128 .f32) :
    out0_A_3 c i a2 h2 a3 h3 a4 h4 a5 h5 a6 h6 hc x0 x1 = k0_pay2 (k0_pay11 x0) (k0_pay5 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, View.ld_unit_zero (S := S1x32x128x128) hz4]

/-- First slab, truncates-to-zero count block. -/
theorem first_trunc0 (c : Dev nD) (i : grid0.Coords) (a2 : Memref sig .tc .vmem S1x32x128x128 .f32) (h2 : a2.IsWhole)
    (a3 : Memref sig .tc .vmem S1x32x128x128 .f32) (h3 : a3.IsWhole) (a4 : Memref sig .tc .vmem S1x1x128 .f32) (h4 : a4.IsWhole)
    (a5 : Memref sig .tc .vmem S1x1x128 .f32) (h5 : a5.IsWhole) (a6 : Memref sig .tc .vmem S1x1x128 .f32) (h6 : a6.IsWhole)
    (hc : cond0_0 i) (x0 x1 : Vec F S1x32x128x128 .f32) :
    out0_A_4 c i a2 h2 a3 h3 a4 h4 a5 h5 a6 h6 hc x0 x1 = k0_pay3 (k0_pay9 x1) (k0_pay6 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, View.ld_unit_zero (S := S1x32x128x128) hz4]

/-- Later slab, log-likelihood block: the slab's sum added to what the step before left (`xo2`). -/
theorem next_bce (c : Dev nD) (i : grid0.Coords) (a2 : Memref sig .tc .vmem S1x32x128x128 .f32) (h2 : a2.IsWhole)
    (a3 : Memref sig .tc .vmem S1x32x128x128 .f32) (h3 : a3.IsWhole) (a4 : Memref sig .tc .vmem S1x1x128 .f32) (h4 : a4.IsWhole)
    (a5 : Memref sig .tc .vmem S1x1x128 .f32) (h5 : a5.IsWhole) (a6 : Memref sig .tc .vmem S1x1x128 .f32) (h6 : a6.IsWhole)
    (hc : ¬cond0_0 i) (x0 x1 : Vec F S1x32x128x128 .f32) (xo2 xo3 xo4 : Vec F S1x1x128 .f32) :
    out0_B_2 c i a2 h2 a3 h3 a4 h4 a5 h5 a6 h6 hc x0 x1 xo2 xo3 xo4 = k0_pay1 (k0_pay10 x0 x1) xo2 := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x32x128x128) hz4, View.ld_unit_zero (S := S1x1x128) hz3]

/-- Later slab, `x ≤ 1/2` count block. -/
theorem next_low (c : Dev nD) (i : grid0.Coords) (a2 : Memref sig .tc .vmem S1x32x128x128 .f32) (h2 : a2.IsWhole)
    (a3 : Memref sig .tc .vmem S1x32x128x128 .f32) (h3 : a3.IsWhole) (a4 : Memref sig .tc .vmem S1x1x128 .f32) (h4 : a4.IsWhole)
    (a5 : Memref sig .tc .vmem S1x1x128 .f32) (h5 : a5.IsWhole) (a6 : Memref sig .tc .vmem S1x1x128 .f32) (h6 : a6.IsWhole)
    (hc : ¬cond0_0 i) (x0 x1 : Vec F S1x32x128x128 .f32) (xo2 xo3 xo4 : Vec F S1x1x128 .f32) :
    out0_B_3 c i a2 h2 a3 h3 a4 h4 a5 h5 a6 h6 hc x0 x1 xo2 xo3 xo4 = k0_pay2 (k0_pay11 x0) xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x32x128x128) hz4, View.ld_unit_zero (S := S1x1x128) hz3]

/-- Later slab, truncates-to-zero count block. -/
theorem next_trunc0 (c : Dev nD) (i : grid0.Coords) (a2 : Memref sig .tc .vmem S1x32x128x128 .f32) (h2 : a2.IsWhole)
    (a3 : Memref sig .tc .vmem S1x32x128x128 .f32) (h3 : a3.IsWhole) (a4 : Memref sig .tc .vmem S1x1x128 .f32) (h4 : a4.IsWhole)
    (a5 : Memref sig .tc .vmem S1x1x128 .f32) (h5 : a5.IsWhole) (a6 : Memref sig .tc .vmem S1x1x128 .f32) (h6 : a6.IsWhole)
    (hc : ¬cond0_0 i) (x0 x1 : Vec F S1x32x128x128 .f32) (xo2 xo3 xo4 : Vec F S1x1x128 .f32) :
    out0_B_4 c i a2 h2 a3 h3 a4 h4 a5 h5 a6 h6 hc x0 x1 xo2 xo3 xo4 = k0_pay3 (k0_pay9 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1x32x128x128) hz4, View.ld_unit_zero (S := S1x1x128) hz3]

end Cert.KernelIdeal.Found

end
-- ==== Proof.Spec.lean ====
/-
  The mathematics both programs compute, over the extended reals, for inputs x, y of shape [20, 1, 128, 128, 128].

  Per element: the clamped log-likelihood  y · max(log x, −100) + (1 − y) · max(log(1 + (0 − x)), −100),  the indicator of
  x ≤ 1/2, and the indicator that y truncates (toward zero) to the integer 0.  Per batch entry b each of the three is summed
  over the 128³ cube; the cube is cut along its first axis into four slabs of 32 planes (index 32·c + i), and a slab's sum is
  taken innermost axis first.  The results are  −(Σ_b Σ_cube term) / (20 · 128³)  and the mean over b of the squared
  difference of the two indicator frequencies.
-/
import Idealize.ShloMosaic.PureOps.Ideal
import Idealize.ShloMosaic.PureOps.Ideal.Laws
import Idealize.ShloMosaic.Lib.ValueIdx

noncomputable section

namespace Cert.BcePor

open Idealize.ShloMosaic Idealize.ShloMosaic.ValueIdx

/-- The shape of both inputs. -/
abbrev Vol : Shape := ⟨5, ![20, 1, 128, 128, 128]⟩

/-- The clamped log-likelihood of a prediction `x` against a target `y`: `y · max(log x, −100) + (1 − y) · max(log(1 + (0 − x)), −100)`. -/
def bce (x y : EReal) : EReal :=
  y * max (Ideal.log x) (Ideal.ofBits .f32 0xC2C80000#32)
    + (Ideal.ofBits .f32 0x3F800000#32 - y)
      * max (Ideal.log1p (Ideal.ofBits .f32 0x00000000#32 - x)) (Ideal.ofBits .f32 0xC2C80000#32)

/-- `1` where `x ≤ 1/2`, else `0`: the comparison's bit, widened and read as an integer. -/
def low (x : EReal) : EReal :=
  ((((Ideal.cmp .ole x (Ideal.ofBits .f32 0x3F000000#32)).setWidth 32).toInt : ℝ) : EReal)

/-- `1` where `y` truncates toward zero to the integer `0`, else `0`. -/
def trunc0 (y : EReal) : EReal :=
  ((((IntOp.cmpi .eq (Ideal.fptosi 32 y) 0#32).setWidth 32).toInt : ℝ) : EReal)

/-- The input index `(b, 0, 32·c + i, j, k)`: plane `i` of slab `c` of batch entry `b`. -/
def at5 (b : Fin 20) (c : Fin 4) (i : Fin 32) (j k : Fin 128) : Vol.Idx :=
  ix5 b (0 : Fin 1) (⟨32 * c.val + i.val, by have := c.isLt; have := i.isLt; omega⟩ : Fin 128) j k

/-- One slab's sum of `f`: over its 32 planes, each plane row by row, each row along its 128 entries. -/
def slab (f : Vol.Idx → EReal) (b : Fin 20) (c : Fin 4) : EReal :=
  ∑ i : Fin 32, ∑ j : Fin 128, ∑ k : Fin 128, f (at5 b c i j k)

/-- A batch entry's sum of `f`: its four slabs. -/
def cube (f : Vol.Idx → EReal) (b : Fin 20) : EReal := ∑ c : Fin 4, slab f b c

/-- Entry `n` of batch entry `b`'s cube laid out flat, row-major: `(b, 0, n / 128², n / 128 mod 128, n mod 128)`. -/
def flat5 (b : Fin 20) (n : Fin 2097152) : Vol.Idx :=
  ix5 b (0 : Fin 1) (⟨n.val / 16384, by have := n.isLt; omega⟩ : Fin 128)
    (⟨n.val / 128 % 128, Nat.mod_lt _ (by decide)⟩ : Fin 128) (⟨n.val % 128, Nat.mod_lt _ (by decide)⟩ : Fin 128)

end Cert.BcePor

end
-- ==== Proof.SlabSums.lean ====
/-
  One grid step's arithmetic over the extended reals, read at a lane of the running-sum block: each of the three stored
  values is the block's previous value at that lane plus the slab's sum — over its 32 planes, each plane row by row, each row
  along its 128 entries — of the per-element function of the step's input blocks.  The reset value is 0 at every lane.
-/
import proofs.«166350_j8254927143083_1_alg».proof.Proof.Gen.KernelIdeal.Skeleton
import proofs.«166350_j8254927143083_1_alg».proof.Proof.Spec
import Idealize.ShloMosaic.Lib.Pipeline.Value
import Idealize.ShloMosaic.Lib.ValueLayout

noncomputable section

namespace Cert.KernelIdeal.SlabSums

open Idealize.ShloMosaic Idealize.ShloMosaic.ValueIdx
open Cert.KernelIdeal Cert.KernelIdeal.Gen Cert.BcePor

/-! ## The index a lane sum inserts -/

/-- Over the one index of a length-1 vector, the plane coordinate `i` is inserted as `(0, i)`. -/
private theorem lift1 (i : Fin 32) : reduces_S1x32_S1.lift (ix1 (0 : Fin 1)) i = ix2 (0 : Fin 1) i := by
  funext a
  match a with
  | ⟨0, _⟩ => rfl
  | ⟨1, _⟩ => rfl

/-- Over `(0, i)`, the row coordinate `j` is inserted as `(0, i, j)`. -/
private theorem lift2 (i : Fin 32) (j : Fin 128) :
    reduces_S1x32x128_S1x32.lift (ix2 (0 : Fin 1) i) j = ix3 (0 : Fin 1) i j := by
  funext a
  match a with
  | ⟨0, _⟩ => rfl
  | ⟨1, _⟩ => rfl
  | ⟨2, _⟩ => rfl

/-- Over `(0, i, j)`, the entry coordinate `k` is inserted as `(0, i, j, k)`. -/
private theorem lift3 (i : Fin 32) (j k : Fin 128) :
    reduces_S1x32x128x128_S1x32x128.lift (ix3 (0 : Fin 1) i j) k = ix4 (0 : Fin 1) i j k := by
  funext a
  match a with
  | ⟨0, _⟩ => rfl
  | ⟨1, _⟩ => rfl
  | ⟨2, _⟩ => rfl
  | ⟨3, _⟩ => rfl

/-! ## The three lane sums, one axis each -/

/-- The sum over the 32 planes. -/
private theorem red1 (v : FVec Ideal S1x32 .f32) :
    multiReduction (F := Ideal) .add [1] S1 v 0x00000000#32 reduces_S1x32_S1 (.inl rfl) rfl (ix1 (0 : Fin 1))
      = ∑ i : Fin 32, v (ix2 (0 : Fin 1) i) :=
  (Ideal.multiReduction_add_single v _ reduces_S1x32_S1 (.inl rfl) rfl (ix1 (0 : Fin 1))).trans
    (Finset.sum_congr rfl fun i _ => congrArg v (lift1 i))

/-- The sum over a plane's 128 rows. -/
private theorem red2 (v : FVec Ideal S1x32x128 .f32) (i : Fin 32) :
    multiReduction (F := Ideal) .add [2] S1x32 v 0x00000000#32 reduces_S1x32x128_S1x32 (.inl rfl) rfl (ix2 (0 : Fin 1) i)
      = ∑ j : Fin 128, v (ix3 (0 : Fin 1) i j) :=
  (Ideal.multiReduction_add_single v _ reduces_S1x32x128_S1x32 (.inl rfl) rfl (ix2 (0 : Fin 1) i)).trans
    (Finset.sum_congr rfl fun j _ => congrArg v (lift2 i j))

/-- The sum along a row's 128 entries. -/
private theorem red3 (v : FVec Ideal S1x32x128x128 .f32) (i : Fin 32) (j : Fin 128) :
    multiReduction (F := Ideal) .add [3] S1x32x128 v 0x00000000#32 reduces_S1x32x128x128_S1x32x128 (.inl rfl) rfl
        (ix3 (0 : Fin 1) i j)
      = ∑ k : Fin 128, v (ix4 (0 : Fin 1) i j k) :=
  (Ideal.multiReduction_add_single v _ reduces_S1x32x128x128_S1x32x128 (.inl rfl) rfl (ix3 (0 : Fin 1) i j)).trans
    (Finset.sum_congr rfl fun k _ => congrArg v (lift3 i j k))

/-! ## The slab's sum added at every lane -/

/-- A `[1,1]` vector's one entry, cast to `[1,1,1]`, spread along the 128 lanes and added to a block: at every lane the
    block's value plus that entry. -/
private theorem add_bcast_apply (w : FVec Ideal S1x1 .f32) (acc : FVec Ideal S1x1x128 .f32) (y : S1x1x128.Idx) :
    addf (shapeCast S1x1x128 acc shapeCasts_S1x1x128_S1x1x128)
        (broadcastTo S1x1x128 (shapeCast S1x1x1 (shapeCast S1x1x1 w shapeCasts_S1x1_S1x1x1) shapeCasts_S1x1x1_S1x1x1)
          broadcasts_S1x1x1_S1x1x128) y
      = acc y + w (ix2 (0 : Fin 1) (0 : Fin 1)) := by
  rw [addf_apply, shapeCast_self, shapeCast_self]
  refine congrArg (fun z => acc y + z) ?_
  refine (broadcastTo_apply _ broadcasts_S1x1x1_S1x1x128 y (ix3 (0 : Fin 1) (0 : Fin 1) (0 : Fin 1)) fun a => ?_).trans ?_
  · match a with
    | ⟨0, _⟩ => rfl
    | ⟨1, _⟩ => rfl
    | ⟨2, _⟩ => rfl
  · exact shapeCast_ab_1ab_apply w shapeCasts_S1x1_S1x1x1 0 0 0

/-- A length-1 vector cast to `[1,1]` reads, at `(0, 0)`, its one entry. -/
private theorem cast11_apply (u : FVec Ideal S1 .f32) :
    shapeCast S1x1 u shapeCasts_S1_S1x1 (ix2 (0 : Fin 1) (0 : Fin 1)) = u (ix1 (0 : Fin 1)) :=
  shapeCast_a_1a_apply u shapeCasts_S1_S1x1 0 0

/-! ## The per-element values -/

/-- The clamped log-likelihood at an element. -/
private theorem bce_at (x0 x1 : Vec Ideal S1x32x128x128 .f32) (p : S1x32x128x128.Idx) :
    addf (mulf (k0_pay8 (F := Ideal) x1)
          (maximumf (log (k0_pay7 (F := Ideal) x0)) (broadcast S1x32x128x128 (Scalar.ofBits .f32 0xC2C80000#32))))
        (mulf (subf (broadcast S1x32x128x128 (Scalar.ofBits .f32 0x3F800000#32)) (k0_pay8 (F := Ideal) x1))
          (maximumf (log1p (subf (broadcast S1x32x128x128 (Scalar.ofBits .f32 0x00000000#32)) (k0_pay7 (F := Ideal) x0)))
            (broadcast S1x32x128x128 (Scalar.ofBits .f32 0xC2C80000#32)))) p
      = bce (x0 p) (x1 p) := by
  have e7 : k0_pay7 (F := Ideal) x0 = x0 := shapeCast_self x0 _
  have e8 : k0_pay8 (F := Ideal) x1 = x1 := shapeCast_self x1 _
  rw [e7, e8]
  rfl

/-- The indicator of `x ≤ 1/2` at an element. -/
private theorem low_at (x0 : Vec Ideal S1x32x128x128 .f32) (p : S1x32x128x128.Idx) :
    (sitofp .f32 (extui 32 (cmpf .ole (k0_pay7 (F := Ideal) x0)
        (broadcast S1x32x128x128 (Scalar.ofBits .f32 0x3F000000#32))) natLt_1_32) : FVec Ideal S1x32x128x128 .f32) p
      = low (x0 p) := by
  have e7 : k0_pay7 (F := Ideal) x0 = x0 := shapeCast_self x0 _
  rw [e7]
  rfl

/-- The indicator of truncating to the integer 0 at an element. -/
private theorem trunc0_at (x1 : Vec Ideal S1x32x128x128 .f32) (p : S1x32x128x128.Idx) :
    k0_pay9 (F := Ideal) x1 p = trunc0 (x1 p) := by
  have e8 : k0_pay8 (F := Ideal) x1 = x1 := shapeCast_self x1 _
  unfold k0_pay9
  rw [e8]
  rfl

/-! ## The three stored values and the three reset values -/

/-- The log-likelihood block after a step: its previous value plus the slab's sum of the clamped log-likelihood. -/
theorem add_bce (x0 x1 : Vec Ideal S1x32x128x128 .f32) (acc : Vec Ideal S1x1x128 .f32) (y : S1x1x128.Idx) :
    k0_pay1 (F := Ideal) (k0_pay10 x0 x1) acc y
      = acc y + ∑ i : Fin 32, ∑ j : Fin 128, ∑ k : Fin 128, bce (x0 (ix4 0 i j k)) (x1 (ix4 0 i j k)) := by
  unfold k0_pay1
  refine (add_bcast_apply _ acc y).trans ?_
  refine congrArg (fun z => acc y + z) ?_
  unfold k0_pay10
  refine (cast11_apply _).trans ?_
  refine (red1 _).trans (Finset.sum_congr rfl fun i _ => ?_)
  refine (red2 _ i).trans (Finset.sum_congr rfl fun j _ => ?_)
  refine (red3 _ i j).trans (Finset.sum_congr rfl fun k _ => ?_)
  exact bce_at x0 x1 _

/-- The `x ≤ 1/2` count block after a step. -/
theorem add_low (x0 : Vec Ideal S1x32x128x128 .f32) (acc : Vec Ideal S1x1x128 .f32) (y : S1x1x128.Idx) :
    k0_pay2 (F := Ideal) (k0_pay11 x0) acc y
      = acc y + ∑ i : Fin 32, ∑ j : Fin 128, ∑ k : Fin 128, low (x0 (ix4 0 i j k)) := by
  unfold k0_pay2
  refine (add_bcast_apply _ acc y).trans ?_
  refine congrArg (fun z => acc y + z) ?_
  refine (cast11_apply _).trans ?_
  refine (red1 _).trans (Finset.sum_congr rfl fun i _ => ?_)
  unfold k0_pay11
  refine (red2 _ i).trans (Finset.sum_congr rfl fun j _ => ?_)
  refine (red3 _ i j).trans (Finset.sum_congr rfl fun k _ => ?_)
  exact low_at x0 _

/-- The truncates-to-zero count block after a step. -/
theorem add_trunc0 (x1 : Vec Ideal S1x32x128x128 .f32) (acc : Vec Ideal S1x1x128 .f32) (y : S1x1x128.Idx) :
    k0_pay3 (F := Ideal) (k0_pay9 x1) acc y
      = acc y + ∑ i : Fin 32, ∑ j : Fin 128, ∑ k : Fin 128, trunc0 (x1 (ix4 0 i j k)) := by
  unfold k0_pay3
  refine (add_bcast_apply _ acc y).trans ?_
  refine congrArg (fun z => acc y + z) ?_
  refine (cast11_apply _).trans ?_
  refine (red1 _).trans (Finset.sum_congr rfl fun i _ => ?_)
  refine (red2 _ i).trans (Finset.sum_congr rfl fun j _ => ?_)
  refine (red3 _ i j).trans (Finset.sum_congr rfl fun k _ => ?_)
  exact trunc0_at x1 _

/-- The three reset values are 0 at every lane. -/
theorem reset_bce (y : S1x1x128.Idx) : k0_pay4 (F := Ideal) y = 0 := by
  unfold k0_pay4
  exact Ideal.ofBits_zero_f32
theorem reset_low (y : S1x1x128.Idx) : k0_pay5 (F := Ideal) y = 0 := by
  unfold k0_pay5
  exact Ideal.ofBits_zero_f32
theorem reset_trunc0 (y : S1x1x128.Idx) : k0_pay6 (F := Ideal) y = 0 := by
  unfold k0_pay6
  exact Ideal.ofBits_zero_f32

end Cert.KernelIdeal.SlabSums

end
-- ==== Proof.Blocks.lean ====
/-
  Which input entries a grid step reads.  The grid has 80 steps; step t works on batch entry t / 4 and slab t mod 4.  Each
  input is first re-laid from [20, 1, 128, 128, 128] to [20, 128, 128, 128] (the same row-major order), and the step's block of
  it, at (0, i, j, k), is the input at (t / 4, 0, 32 · (t mod 4) + i, j, k).

  Two facts make this up.  The block of step t starts, in the re-laid array, at (t / 4, 32 · (t mod 4), 0, 0) — the step's
  block index along each axis times the block's extent there (1, 32, 128, 128) —, so its entry (0, i, j, k) is the re-laid
  array's entry (t / 4, 32 · (t mod 4) + i, j, k).  And the re-laying keeps row-major positions: entry (b, r, j, k) of the
  re-laid array and entry (b, 0, r, j, k) of the input both sit at position ((b · 128 + r) · 128 + j) · 128 + k.
-/
import proofs.«166350_j8254927143083_1_alg».proof.Proof.Gen.KernelIdeal.Frame
import proofs.«166350_j8254927143083_1_alg».proof.Proof.Spec
import Idealize.ShloMosaic.Lib.Pipeline.Value
import Idealize.ShloMosaic.Lib.StableHlo.Run

noncomputable section

namespace Cert.KernelIdeal.Blocks

open Idealize.ShloMosaic Idealize.ShloMosaic.TcCoe Idealize.SL.Sem Idealize.ShloMosaic.ValueIdx
open Cert.KernelIdeal Cert.KernelIdeal.Gen Cert.BcePor

/-- The batch entry a grid step works on. -/
def batchOf (t : Fin cfg0.N) : Fin 20 := ⟨t.val / 4, by have := lt_of_lt_of_eq t.isLt (show cfg0.N = 80 from N_0); omega⟩
/-- The slab a grid step works on. -/
def slabOf (t : Fin cfg0.N) : Fin 4 := ⟨t.val % 4, Nat.mod_lt _ (by decide)⟩

variable (m : (ℓ : Loc nD τ sig) → Buf (Elt Ideal) ℓ)

/-! ## The block index of a step -/

/-- Step `t`'s block of the first input has block index `(t / 4, t mod 4, 0, 0)`: decided over the 80 steps. -/
private theorem x_index : ∀ t : Fin cfg0.N,
    win0_0.index t 0 = t.val / 4 ∧ win0_0.index t 1 = t.val % 4 ∧ win0_0.index t 2 = 0 ∧ win0_0.index t 3 = 0 :=
  (by decide +kernel : ∀ t : Fin grid0.N,
    win0_0.index t 0 = t.val / 4 ∧ win0_0.index t 1 = t.val % 4 ∧ win0_0.index t 2 = 0 ∧ win0_0.index t 3 = 0)
/-- The same for the second input. -/
private theorem y_index : ∀ t : Fin cfg0.N,
    win0_1.index t 0 = t.val / 4 ∧ win0_1.index t 1 = t.val % 4 ∧ win0_1.index t 2 = 0 ∧ win0_1.index t 3 = 0 :=
  (by decide +kernel : ∀ t : Fin grid0.N,
    win0_1.index t 0 = t.val / 4 ∧ win0_1.index t 1 = t.val % 4 ∧ win0_1.index t 2 = 0 ∧ win0_1.index t 3 = 0)

/-! ## The re-laid inputs -/

/-- When the grid starts, the first window's array holds the first input re-laid to `[20, 128, 128, 128]`. -/
private theorem x_relaid (c : Dev nD) : (V m c main_v0 : S20x128x128x128.Idx → EReal)
    = shapeCast S20x128x128x128 (m ((c : Thread nD τ).loc main_arg0)) shapeCasts_S20x1x128x128x128_S20x128x128x128 := by
  show StableHlo.after hostOps0 (fun b => m (c, b)) (Proc.devRef .tc main_v0) = _
  after_results
  rfl
/-- And the second window's array the second input re-laid. -/
private theorem y_relaid (c : Dev nD) : (V m c main_v1 : S20x128x128x128.Idx → EReal)
    = shapeCast S20x128x128x128 (m ((c : Thread nD τ).loc main_arg1)) shapeCasts_S20x1x128x128x128_S20x128x128x128 := by
  show StableHlo.after hostOps0 (fun b => m (c, b)) (Proc.devRef .tc main_v1) = _
  after_results
  rfl

/-- The re-laid index `(b, 32·s + i, j, k)`: plane `i` of slab `s` of batch entry `b`. -/
private def at4 (b : Fin 20) (s : Fin 4) (i : Fin 32) (j k : Fin 128) : S20x128x128x128.Idx :=
  ix4 b (⟨32 * s.val + i.val, by have := s.isLt; have := i.isLt; omega⟩ : Fin 128) j k

/-- The re-laying at `(b, 32·s + i, j, k)` is the input at `(b, 0, 32·s + i, j, k)`: both have row-major position
    `((b · 128 + (32·s + i)) · 128 + j) · 128 + k`. -/
private theorem relaid_apply (x : Vol.Idx → EReal) (b : Fin 20) (s : Fin 4) (i : Fin 32) (j k : Fin 128) :
    shapeCast S20x128x128x128 x shapeCasts_S20x1x128x128x128_S20x128x128x128 (at4 b s i j k) = x (at5 b s i j k) :=
  shapeCast_apply x shapeCasts_S20x1x128x128x128_S20x128x128x128 (at4 b s i j k) (at5 b s i j k)
    (by rewrite [Shape.rowMajor_val_five, Shape.rowMajor_val_four]
        show (((b.val * 1 + 0) * 128 + (32 * s.val + i.val)) * 128 + j.val) * 128 + k.val
          = ((b.val * 128 + (32 * s.val + i.val)) * 128 + j.val) * 128 + k.val
        omega)

/-! ## Where a step's block sits -/

/-- Entry `(0, i, j, k)` of step `t`'s block of the first re-laid input is that array's entry
    `(t / 4, 32 · (t mod 4) + i, j, k)`: along each axis, the block index times the block's extent plus the coordinate
    inside the block. -/
private theorem x_entry (t : Fin cfg0.N) (i : Fin 32) (j k : Fin 128) :
    (((cfg0.win 0).blk t).view.emb (ix4 0 i j k) : S20x128x128x128.Idx) = at4 (batchOf t) (slabOf t) i j k := by
  have hi := x_index t
  funext a
  apply Fin.ext
  match a with
  | ⟨0, _⟩ => show win0_0.index t 0 * 1 + 1 * 0 = t.val / 4; rw [hi.1]; omega
  | ⟨1, _⟩ => show win0_0.index t 1 * 32 + 1 * i.val = 32 * (t.val % 4) + i.val; rw [hi.2.1]; omega
  | ⟨2, _⟩ => show win0_0.index t 2 * 128 + 1 * j.val = j.val; rw [hi.2.2.1]; omega
  | ⟨3, _⟩ => show win0_0.index t 3 * 128 + 1 * k.val = k.val; rw [hi.2.2.2]; omega
/-- The same for the second input. -/
private theorem y_entry (t : Fin cfg0.N) (i : Fin 32) (j k : Fin 128) :
    (((cfg0.win 1).blk t).view.emb (ix4 0 i j k) : S20x128x128x128.Idx) = at4 (batchOf t) (slabOf t) i j k := by
  have hi := y_index t
  funext a
  apply Fin.ext
  match a with
  | ⟨0, _⟩ => show win0_1.index t 0 * 1 + 1 * 0 = t.val / 4; rw [hi.1]; omega
  | ⟨1, _⟩ => show win0_1.index t 1 * 32 + 1 * i.val = 32 * (t.val % 4) + i.val; rw [hi.2.1]; omega
  | ⟨2, _⟩ => show win0_1.index t 2 * 128 + 1 * j.val = j.val; rw [hi.2.2.1]; omega
  | ⟨3, _⟩ => show win0_1.index t 3 * 128 + 1 * k.val = k.val; rw [hi.2.2.2]; omega

/-! ## The blocks -/

/-- The step's block of the first input, at `(0, i, j, k)`, is the input at `(t / 4, 0, 32 · (t mod 4) + i, j, k)`. -/
theorem x_block (c : Dev nD) (t : Fin cfg0.N) (i : Fin 32) (j k : Fin 128) :
    (iblk m c 0 t : Vec Ideal S1x32x128x128 .f32) (ix4 0 i j k)
      = m ((c : Thread nD τ).loc main_arg0) (at5 (batchOf t) (slabOf t) i j k) := by
  unfold iblk
  rw [View.read_apply]
  show V m c main_v0 (((cfg0.win 0).blk t).view.emb (ix4 0 i j k)) = _
  rw [x_relaid, x_entry]
  exact relaid_apply _ _ _ _ _ _

/-- The same for the second input. -/
theorem y_block (c : Dev nD) (t : Fin cfg0.N) (i : Fin 32) (j k : Fin 128) :
    (iblk m c 1 t : Vec Ideal S1x32x128x128 .f32) (ix4 0 i j k)
      = m ((c : Thread nD τ).loc main_arg1) (at5 (batchOf t) (slabOf t) i j k) := by
  unfold iblk
  rw [View.read_apply]
  show V m c main_v1 (((cfg0.win 1).blk t).view.emb (ix4 0 i j k)) = _
  rw [y_relaid, y_entry]
  exact relaid_apply _ _ _ _ _ _

end Cert.KernelIdeal.Blocks

end
-- ==== Proof.Running.lean ====
/-
  The three running sums over the grid.  The 80 grid steps go through the batch entries in order, four slabs each.  At a
  batch entry's first slab each running block is reset to zero and the slab's sum added; at the next three the slab's sum is
  added to what the step before left; so after the fourth slab every lane of a block holds  0 + s₀ + s₁ + s₂ + s₃,  the sum
  over the batch entry's whole cube.  (Only associativity of + on the extended reals and 0 + a = a are used.)
-/
import proofs.«166350_j8254927143083_1_alg».proof.Proof.Found
import proofs.«166350_j8254927143083_1_alg».proof.Proof.SlabSums
import proofs.«166350_j8254927143083_1_alg».proof.Proof.Blocks
import Mathlib.Algebra.BigOperators.Fin

noncomputable section

namespace Cert.KernelIdeal.Running

open Idealize.ShloMosaic Idealize.ShloMosaic.TcCoe Idealize.SL.Sem Idealize.ShloMosaic.ValueIdx
open Cert.KernelIdeal Cert.KernelIdeal.Gen Cert.BcePor Cert.KernelIdeal.Blocks

/-- A quantity over the grid steps that is `0 + (this step's slab sum)` at every fourth step and `(previous) + (this step's
    slab sum)` at the others is, at the last step of a batch entry, the sum over that entry's cube. -/
theorem fourth_step_is_cube {ι : Type} (G : Vol.Idx → EReal) (f : (n : ℕ) → n < cfg0.N → ι → EReal)
    (h0 : ∀ (n : ℕ) (h : n < cfg0.N), n % 4 = 0 → ∀ y, f n h y = 0 + slab G (batchOf ⟨n, h⟩) (slabOf ⟨n, h⟩))
    (hs : ∀ (n : ℕ) (h : n + 1 < cfg0.N), ¬(n + 1) % 4 = 0 →
      ∀ y, f (n + 1) h y = f n (Nat.lt_of_succ_lt h) y + slab G (batchOf ⟨n + 1, h⟩) (slabOf ⟨n + 1, h⟩))
    (t : Fin cfg0.N) (ht : t.val % 4 = 3) (y : ι) : f t.val t.isLt y = cube G (batchOf t) := by
  obtain ⟨n, hn⟩ := t
  dsimp only at ht ⊢
  obtain ⟨q, rfl⟩ : ∃ q, n = q + 3 := ⟨n - 3, by omega⟩
  have hq : q % 4 = 0 := by omega
  have l1 : q + 1 < cfg0.N := by omega
  have l2 : q + 2 < cfg0.N := by omega
  have l0 : q < cfg0.N := by omega
  have e3 := hs (q + 2) hn (by omega) y
  have e2 := hs (q + 1) l2 (by omega) y
  have e1 := hs q l1 (by omega) y
  have e0 := h0 q l0 hq y
  have b3 : batchOf ⟨q + 3, hn⟩ = batchOf ⟨q, l0⟩ := Fin.ext (by show (q + 3) / 4 = q / 4; omega)
  have b2 : batchOf ⟨q + 2, l2⟩ = batchOf ⟨q, l0⟩ := Fin.ext (by show (q + 2) / 4 = q / 4; omega)
  have b1 : batchOf ⟨q + 1, l1⟩ = batchOf ⟨q, l0⟩ := Fin.ext (by show (q + 1) / 4 = q / 4; omega)
  have s3 : slabOf ⟨q + 3, hn⟩ = 3 := Fin.ext (by show (q + 3) % 4 = 3; omega)
  have s2 : slabOf ⟨q + 2, l2⟩ = 2 := Fin.ext (by show (q + 2) % 4 = 2; omega)
  have s1 : slabOf ⟨q + 1, l1⟩ = 1 := Fin.ext (by show (q + 1) % 4 = 1; omega)
  have s0 : slabOf ⟨q, l0⟩ = 0 := Fin.ext (by show q % 4 = 0; omega)
  rw [show f (q + 3) hn y = f (q + 2 + 1) hn y from rfl, e3, e2, e1, e0, b3, b2, b1, s3, s2, s1, s0, zero_add]
  unfold cube
  rw [Fin.sum_univ_four]

variable (m : (ℓ : Loc nD τ sig) → Buf (Elt Ideal) ℓ)

/-- The two inputs as launched. -/
abbrev xin (c : Dev nD) : Vol.Idx → EReal := m ((c : Thread nD τ).loc main_arg0)
abbrev yin (c : Dev nD) : Vol.Idx → EReal := m ((c : Thread nD τ).loc main_arg1)

/-- A step's two input blocks. -/
abbrev xblk (c : Dev nD) (t : Fin cfg0.N) : Vec Ideal S1x32x128x128 .f32 := iblk m c 0 t
abbrev yblk (c : Dev nD) (t : Fin cfg0.N) : Vec Ideal S1x32x128x128 .f32 := iblk m c 1 t

/-- A slab's nested sum over a step's blocks is the slab's sum over the inputs. -/
theorem slab_of_blocks (g : EReal → EReal → EReal) (c : Dev nD) (t : Fin cfg0.N) :
    (∑ i : Fin 32, ∑ j : Fin 128, ∑ k : Fin 128, g (xblk m c t (ix4 0 i j k)) (yblk m c t (ix4 0 i j k)))
      = slab (fun j => g (xin m c j) (yin m c j)) (batchOf t) (slabOf t) := by
  unfold slab
  refine Finset.sum_congr rfl fun i _ => Finset.sum_congr rfl fun j _ => Finset.sum_congr rfl fun k _ => ?_
  exact congrArg₂ g (x_block m c t i j k) (y_block m c t i j k)

/-- After a batch entry's last slab every lane of the log-likelihood block holds the entry's cube sum. -/
theorem bce_block (c : Dev nD) (t : Fin cfg0.N) (ht : t.val % 4 = 3) (y : S1x1x128.Idx) :
    (outsAt0 m c t.val t.isLt).1 y = cube (fun j => bce (xin m c j) (yin m c j)) (batchOf t) := by
  refine fourth_step_is_cube (fun j => bce (xin m c j) (yin m c j)) (fun n h => (outsAt0 m c n h).1) ?_ ?_ t ht y
  · intro n h hn y
    show (outsAt0 m c n h).1 y = _
    rw [outsAt0_A m c ⟨n, h⟩ hn]
    dsimp only
    rw [Found.first_bce (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hn) (xblk m c ⟨n, h⟩) (yblk m c ⟨n, h⟩)]
    rw [SlabSums.add_bce, SlabSums.reset_bce]
    exact congrArg (0 + ·) (slab_of_blocks m bce c ⟨n, h⟩)
  · intro n h hn y
    show (outsAt0 m c (n + 1) h).1 y = (outsAt0 m c n _).1 y + _
    rw [outsAt0_B m c ⟨n + 1, h⟩ hn]
    dsimp only
    rw [Found.next_bce (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hn ((hcond0_0 ⟨n + 1, h⟩).mp hh)) (xblk m c ⟨n + 1, h⟩) (yblk m c ⟨n + 1, h⟩)]
    rw [SlabSums.add_bce]
    exact congrArg (_ + ·) (slab_of_blocks m bce c ⟨n + 1, h⟩)

/-- After a batch entry's last slab every lane of the second block holds the entry's count of `x ≤ 1/2`. -/
theorem low_block (c : Dev nD) (t : Fin cfg0.N) (ht : t.val % 4 = 3) (y : S1x1x128.Idx) :
    (outsAt0 m c t.val t.isLt).2.1 y = cube (fun j => low (xin m c j)) (batchOf t) := by
  refine fourth_step_is_cube (fun j => low (xin m c j)) (fun n h => (outsAt0 m c n h).2.1) ?_ ?_ t ht y
  · intro n h hn y
    show (outsAt0 m c n h).2.1 y = _
    rw [outsAt0_A m c ⟨n, h⟩ hn]
    dsimp only
    rw [Found.first_low (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hn) (xblk m c ⟨n, h⟩) (yblk m c ⟨n, h⟩)]
    rw [SlabSums.add_low, SlabSums.reset_low]
    exact congrArg (0 + ·) (slab_of_blocks m (fun a _ => low a) c ⟨n, h⟩)
  · intro n h hn y
    show (outsAt0 m c (n + 1) h).2.1 y = (outsAt0 m c n _).2.1 y + _
    rw [outsAt0_B m c ⟨n + 1, h⟩ hn]
    dsimp only
    rw [Found.next_low (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hn ((hcond0_0 ⟨n + 1, h⟩).mp hh)) (xblk m c ⟨n + 1, h⟩) (yblk m c ⟨n + 1, h⟩)]
    rw [SlabSums.add_low]
    exact congrArg (_ + ·) (slab_of_blocks m (fun a _ => low a) c ⟨n + 1, h⟩)

/-- After a batch entry's last slab every lane of the third block holds the entry's count of targets truncating to 0. -/
theorem trunc0_block (c : Dev nD) (t : Fin cfg0.N) (ht : t.val % 4 = 3) (y : S1x1x128.Idx) :
    (outsAt0 m c t.val t.isLt).2.2 y = cube (fun j => trunc0 (yin m c j)) (batchOf t) := by
  refine fourth_step_is_cube (fun j => trunc0 (yin m c j)) (fun n h => (outsAt0 m c n h).2.2) ?_ ?_ t ht y
  · intro n h hn y
    show (outsAt0 m c n h).2.2 y = _
    rw [outsAt0_A m c ⟨n, h⟩ hn]
    dsimp only
    rw [Found.first_trunc0 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hn) (xblk m c ⟨n, h⟩) (yblk m c ⟨n, h⟩)]
    rw [SlabSums.add_trunc0, SlabSums.reset_trunc0]
    exact congrArg (0 + ·) (slab_of_blocks m (fun _ b => trunc0 b) c ⟨n, h⟩)
  · intro n h hn y
    show (outsAt0 m c (n + 1) h).2.2 y = (outsAt0 m c n _).2.2 y + _
    rw [outsAt0_B m c ⟨n + 1, h⟩ hn]
    dsimp only
    rw [Found.next_trunc0 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hn ((hcond0_0 ⟨n + 1, h⟩).mp hh)) (xblk m c ⟨n + 1, h⟩) (yblk m c ⟨n + 1, h⟩)]
    rw [SlabSums.add_trunc0]
    exact congrArg (_ + ·) (slab_of_blocks m (fun _ b => trunc0 b) c ⟨n + 1, h⟩)

end Cert.KernelIdeal.Running

end
-- ==== Proof.Final.lean ====
/-
  What the three result arrays of shape [20, 1, 128] hold after the grid.  Block (b, 0, 0) of each is written back once, after
  batch entry b's fourth slab, when every lane of the running block holds the entry's cube sum; the twenty blocks tile the
  array.  So each array ends holding, at (b, 0, l), the cube sum of batch entry b — of the clamped log-likelihood, of the
  indicator of x ≤ 1/2, and of the indicator that y truncates to 0.
-/
import proofs.«166350_j8254927143083_1_alg».proof.Proof.Running
import Idealize.ShloMosaic.Lib.Pipeline.Value

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.BcePor Cert.KernelIdeal.Blocks Cert.KernelIdeal.Running

variable (m : (ℓ : Loc nD τ sig) → Buf (Elt Ideal) ℓ)

/-- The three arrays' contents after the grid: at `(b, 0, l)` the cube sum of batch entry `b`. -/
def bceArr (c : Dev nD) : Buf (Elt Ideal) ((c : Thread nD τ).loc main_v2_0) :=
  fun i => cube (fun j => bce (xin m c j) (yin m c j)) (i 0)
def lowArr (c : Dev nD) : Buf (Elt Ideal) ((c : Thread nD τ).loc main_v2_1) :=
  fun i => cube (fun j => low (xin m c j)) (i 0)
def trunc0Arr (c : Dev nD) : Buf (Elt Ideal) ((c : Thread nD τ).loc main_v2_2) :=
  fun i => cube (fun j => trunc0 (yin m c j)) (i 0)

/-- Step `t` writes block `(t / 4, 0, 0)` of each result array. -/
theorem out_index : ∀ t : Fin cfg0.N,
    win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = 0 ∧ win0_4.index t (2 : Fin 3) = 0 :=
  (by decide +kernel : ∀ t : Fin grid0.N, _)

/-- The last step of batch entry `b`. -/
def lastStep (b : Fin 20) : Fin cfg0.N := ⟨4 * b.val + 3, by rw [show cfg0.N = 80 from N_0]; have := b.isLt; omega⟩

/-! ## The log-likelihood array -/

/-- Every index in the block step `t` writes back has first coordinate `t / 4`. -/
theorem bce_first (t : Fin cfg0.N) (i : S20x1x128.Idx) (hmem : i ∈ ((cfg0.win 2).blk t).view.set) : i 0 = batchOf t := by
  have hi : i ∈ ((View.whole main_v2_0).slice (win0_2.rect t)).set := hmem
  rw [View.set_slice_whole, Rect.mem_set_unit] at hi
  have h0 : win0_2.index t (0 : Fin 3) * 1 ≤ (i 0).val ∧ (i 0).val < win0_2.index t (0 : Fin 3) * 1 + 1 := hi 0
  rw [(out_index t).1] at h0
  exact Fin.ext (by show (i 0).val = t.val / 4; omega)

/-- So an array constant along its rows, read through that block, is constant. -/
theorem bce_read (t : Fin cfg0.N) (g : Fin 20 → EReal) :
    ((cfg0.win 2).blk t).view.read (Elt Ideal) (fun i : S20x1x128.Idx => g (i 0)) = fun _ => g (batchOf t) := by
  funext y
  rw [View.read_apply]
  exact congrArg g (bce_first t _ (((cfg0.win 2).blk t).view.emb_mem_set y))

/-- The part of a constant running block that a write-back moves is constant. -/
theorem bce_cut (t : Fin cfg0.N) (v : Vec Ideal S1x1x128 .f32) (k : EReal) (hv : ∀ y, v y = k) :
    (cfg0.win 2).cut (grid0.coords t) v = fun _ => k := by
  funext y
  exact hv _

/-- What a write-back of the log-likelihood block writes is that block of the array's final contents. -/
theorem bce_flushed (c : Dev nD) (t : Fin cfg0.N) (hf : (cfg0.win 2).flush t = true) :
    (dats m 0 c).flushed 2 t = ((cfg0.win 2).blk t).view.read (Elt Ideal) (bceArr m c) := by
  have ht : t.val % 4 = 3 := (flush0_2 t).mp hf
  show (cfg0.win 2).cut (grid0.coords t) ((dats m 0 c).after 2 t) = _
  rw [after0_2, bce_cut t _ _ (bce_block m c t ht)]
  exact (bce_read t (cube (fun j => bce (xin m c j) (yin m c j)))).symm

/-! ## The array counting `x ≤ 1/2` -/

/-- Every index in the block step `t` writes back has first coordinate `t / 4`. -/
theorem low_first (t : Fin cfg0.N) (i : S20x1x128.Idx) (hmem : i ∈ ((cfg0.win 3).blk t).view.set) : i 0 = batchOf t := by
  have hi : i ∈ ((View.whole main_v2_1).slice (win0_3.rect t)).set := hmem
  rw [View.set_slice_whole, Rect.mem_set_unit] at hi
  have h0 : win0_3.index t (0 : Fin 3) * 1 ≤ (i 0).val ∧ (i 0).val < win0_3.index t (0 : Fin 3) * 1 + 1 := hi 0
  rw [(out_index t).2.2.2.1] at h0
  exact Fin.ext (by show (i 0).val = t.val / 4; omega)

/-- So an array constant along its rows, read through that block, is constant. -/
theorem low_read (t : Fin cfg0.N) (g : Fin 20 → EReal) :
    ((cfg0.win 3).blk t).view.read (Elt Ideal) (fun i : S20x1x128.Idx => g (i 0)) = fun _ => g (batchOf t) := by
  funext y
  rw [View.read_apply]
  exact congrArg g (low_first t _ (((cfg0.win 3).blk t).view.emb_mem_set y))

/-- The part of a constant running block that a write-back moves is constant. -/
theorem low_cut (t : Fin cfg0.N) (v : Vec Ideal S1x1x128 .f32) (k : EReal) (hv : ∀ y, v y = k) :
    (cfg0.win 3).cut (grid0.coords t) v = fun _ => k := by
  funext y
  exact hv _

/-- What a write-back of the `x ≤ 1/2` count block writes is that block of the array's final contents. -/
theorem low_flushed (c : Dev nD) (t : Fin cfg0.N) (hf : (cfg0.win 3).flush t = true) :
    (dats m 0 c).flushed 3 t = ((cfg0.win 3).blk t).view.read (Elt Ideal) (lowArr m c) := by
  have ht : t.val % 4 = 3 := (flush0_3 t).mp hf
  show (cfg0.win 3).cut (grid0.coords t) ((dats m 0 c).after 3 t) = _
  rw [after0_3, low_cut t _ _ (low_block m c t ht)]
  exact (low_read t (cube (fun j => low (xin m c j)))).symm

/-! ## The array counting targets that truncate to 0 -/

/-- Every index in the block step `t` writes back has first coordinate `t / 4`. -/
theorem trunc0_first (t : Fin cfg0.N) (i : S20x1x128.Idx) (hmem : i ∈ ((cfg0.win 4).blk t).view.set) : i 0 = batchOf t := by
  have hi : i ∈ ((View.whole main_v2_2).slice (win0_4.rect t)).set := hmem
  rw [View.set_slice_whole, Rect.mem_set_unit] at hi
  have h0 : win0_4.index t (0 : Fin 3) * 1 ≤ (i 0).val ∧ (i 0).val < win0_4.index t (0 : Fin 3) * 1 + 1 := hi 0
  rw [(out_index t).2.2.2.2.2.2.1] at h0
  exact Fin.ext (by show (i 0).val = t.val / 4; omega)

/-- So an array constant along its rows, read through that block, is constant. -/
theorem trunc0_read (t : Fin cfg0.N) (g : Fin 20 → EReal) :
    ((cfg0.win 4).blk t).view.read (Elt Ideal) (fun i : S20x1x128.Idx => g (i 0)) = fun _ => g (batchOf t) := by
  funext y
  rw [View.read_apply]
  exact congrArg g (trunc0_first t _ (((cfg0.win 4).blk t).view.emb_mem_set y))

/-- The part of a constant running block that a write-back moves is constant. -/
theorem trunc0_cut (t : Fin cfg0.N) (v : Vec Ideal S1x1x128 .f32) (k : EReal) (hv : ∀ y, v y = k) :
    (cfg0.win 4).cut (grid0.coords t) v = fun _ => k := by
  funext y
  exact hv _

/-- What a write-back of the truncates-to-0 count block writes is that block of the array's final contents. -/
theorem trunc0_flushed (c : Dev nD) (t : Fin cfg0.N) (hf : (cfg0.win 4).flush t = true) :
    (dats m 0 c).flushed 4 t = ((cfg0.win 4).blk t).view.read (Elt Ideal) (trunc0Arr m c) := by
  have ht : t.val % 4 = 3 := (flush0_4 t).mp hf
  show (cfg0.win 4).cut (grid0.coords t) ((dats m 0 c).after 4 t) = _
  rw [after0_4, trunc0_cut t _ _ (trunc0_block m c t ht)]
  exact (trunc0_read t (cube (fun j => trunc0 (yin m c j)))).symm

/-! ## The blocks tile the arrays -/

/-- Every index `(b, 0, l)` of a result array lies in the block the last step of batch entry `b` writes back. -/
theorem bce_cover (i : S20x1x128.Idx) :
    ∃ t : Fin cfg0.N, (cfg0.win 2).flush t = true ∧ i ∈ ((cfg0.win 2).blk t).view.set := by
  have h0 : (i 0).val < 20 := (i 0).isLt
  have h1 : (i 1).val < 1 := (i 1).isLt
  have h2 : (i 2).val < 128 := (i 2).isLt
  refine ⟨lastStep ⟨(i 0).val, h0⟩, (flush0_2 _).mpr (by show (4 * (i 0).val + 3) % 4 = 3; omega), ?_⟩
  obtain ⟨e0, e1, e2, -⟩ := out_index (lastStep ⟨(i 0).val, h0⟩)
  have ev : (lastStep ⟨(i 0).val, h0⟩).val / 4 = (i 0).val := by show (4 * (i 0).val + 3) / 4 = (i 0).val; omega
  show i ∈ ((View.whole main_v2_0).slice (win0_2.rect (lastStep ⟨(i 0).val, h0⟩))).set
  rw [View.set_slice_whole, Rect.mem_set_unit]
  intro a
  match a with
  | ⟨0, _⟩ => show win0_2.index (lastStep ⟨(i 0).val, h0⟩) (0 : Fin 3) * 1 ≤ (i 0).val ∧ (i 0).val < win0_2.index (lastStep ⟨(i 0).val, h0⟩) (0 : Fin 3) * 1 + 1; rw [e0, ev]; omega
  | ⟨1, _⟩ => show win0_2.index (lastStep ⟨(i 0).val, h0⟩) (1 : Fin 3) * 1 ≤ (i 1).val ∧ (i 1).val < win0_2.index (lastStep ⟨(i 0).val, h0⟩) (1 : Fin 3) * 1 + 1; rw [e1]; omega
  | ⟨2, _⟩ => show win0_2.index (lastStep ⟨(i 0).val, h0⟩) (2 : Fin 3) * 128 ≤ (i 2).val ∧ (i 2).val < win0_2.index (lastStep ⟨(i 0).val, h0⟩) (2 : Fin 3) * 128 + 128; rw [e2]; omega

theorem low_cover (i : S20x1x128.Idx) :
    ∃ t : Fin cfg0.N, (cfg0.win 3).flush t = true ∧ i ∈ ((cfg0.win 3).blk t).view.set := by
  have h0 : (i 0).val < 20 := (i 0).isLt
  have h1 : (i 1).val < 1 := (i 1).isLt
  have h2 : (i 2).val < 128 := (i 2).isLt
  refine ⟨lastStep ⟨(i 0).val, h0⟩, (flush0_3 _).mpr (by show (4 * (i 0).val + 3) % 4 = 3; omega), ?_⟩
  obtain ⟨-, -, -, e0, e1, e2, -⟩ := out_index (lastStep ⟨(i 0).val, h0⟩)
  have ev : (lastStep ⟨(i 0).val, h0⟩).val / 4 = (i 0).val := by show (4 * (i 0).val + 3) / 4 = (i 0).val; omega
  show i ∈ ((View.whole main_v2_1).slice (win0_3.rect (lastStep ⟨(i 0).val, h0⟩))).set
  rw [View.set_slice_whole, Rect.mem_set_unit]
  intro a
  match a with
  | ⟨0, _⟩ => show win0_3.index (lastStep ⟨(i 0).val, h0⟩) (0 : Fin 3) * 1 ≤ (i 0).val ∧ (i 0).val < win0_3.index (lastStep ⟨(i 0).val, h0⟩) (0 : Fin 3) * 1 + 1; rw [e0, ev]; omega
  | ⟨1, _⟩ => show win0_3.index (lastStep ⟨(i 0).val, h0⟩) (1 : Fin 3) * 1 ≤ (i 1).val ∧ (i 1).val < win0_3.index (lastStep ⟨(i 0).val, h0⟩) (1 : Fin 3) * 1 + 1; rw [e1]; omega
  | ⟨2, _⟩ => show win0_3.index (lastStep ⟨(i 0).val, h0⟩) (2 : Fin 3) * 128 ≤ (i 2).val ∧ (i 2).val < win0_3.index (lastStep ⟨(i 0).val, h0⟩) (2 : Fin 3) * 128 + 128; rw [e2]; omega

theorem trunc0_cover (i : S20x1x128.Idx) :
    ∃ t : Fin cfg0.N, (cfg0.win 4).flush t = true ∧ i ∈ ((cfg0.win 4).blk t).view.set := by
  have h0 : (i 0).val < 20 := (i 0).isLt
  have h1 : (i 1).val < 1 := (i 1).isLt
  have h2 : (i 2).val < 128 := (i 2).isLt
  refine ⟨lastStep ⟨(i 0).val, h0⟩, (flush0_4 _).mpr (by show (4 * (i 0).val + 3) % 4 = 3; omega), ?_⟩
  obtain ⟨-, -, -, -, -, -, e0, e1, e2⟩ := out_index (lastStep ⟨(i 0).val, h0⟩)
  have ev : (lastStep ⟨(i 0).val, h0⟩).val / 4 = (i 0).val := by show (4 * (i 0).val + 3) / 4 = (i 0).val; omega
  show i ∈ ((View.whole main_v2_2).slice (win0_4.rect (lastStep ⟨(i 0).val, h0⟩))).set
  rw [View.set_slice_whole, Rect.mem_set_unit]
  intro a
  match a with
  | ⟨0, _⟩ => show win0_4.index (lastStep ⟨(i 0).val, h0⟩) (0 : Fin 3) * 1 ≤ (i 0).val ∧ (i 0).val < win0_4.index (lastStep ⟨(i 0).val, h0⟩) (0 : Fin 3) * 1 + 1; rw [e0, ev]; omega
  | ⟨1, _⟩ => show win0_4.index (lastStep ⟨(i 0).val, h0⟩) (1 : Fin 3) * 1 ≤ (i 1).val ∧ (i 1).val < win0_4.index (lastStep ⟨(i 0).val, h0⟩) (1 : Fin 3) * 1 + 1; rw [e1]; omega
  | ⟨2, _⟩ => show win0_4.index (lastStep ⟨(i 0).val, h0⟩) (2 : Fin 3) * 128 ≤ (i 2).val ∧ (i 2).val < win0_4.index (lastStep ⟨(i 0).val, h0⟩) (2 : Fin 3) * 128 + 128; rw [e2]; omega

/-- The three result arrays after the grid. -/
theorem bce_final (c : Dev nD) : (dats m 0 c).arrAt 2 cfg0.N = bceArr m c :=
  (dats m 0 c).arrAt_eq_of_cover 2 (bceArr m c) (bce_flushed m c) bce_cover
theorem low_final (c : Dev nD) : (dats m 0 c).arrAt 3 cfg0.N = lowArr m c :=
  (dats m 0 c).arrAt_eq_of_cover 3 (lowArr m c) (low_flushed m c) low_cover
theorem trunc0_final (c : Dev nD) : (dats m 0 c).arrAt 4 cfg0.N = trunc0Arr m c :=
  (dats m 0 c).arrAt_eq_of_cover 4 (trunc0Arr m c) (trunc0_flushed m c) trunc0_cover

end Cert.KernelIdeal.Final

end
-- ==== Proof.Tail.lean ====
/-
  The arithmetic after the grid, as functions of the three result arrays.  The program takes lane 0 of each array's rows (a
  [20]-vector each), and computes
    the second result:  (Σ_b (p_b / 128³ − q_b / 128³)²) / 20   from the two count vectors p, q,
    the first result:   that plus  (−Σ_b a_b) / (20 · 128³)     from the log-likelihood vector a.
-/
import proofs.«166350_j8254927143083_1_alg».proof.Proof.Gen.KernelIdeal
import proofs.«166350_j8254927143083_1_alg».proof.Proof.Spec
import Idealize.ShloMosaic.Lib.Pipeline.Value
import Idealize.ShloMosaic.Lib.ValueIdx

noncomputable section

namespace Cert.KernelIdeal.Tail

open Idealize.ShloMosaic Idealize.ShloMosaic.ValueIdx
open Cert.KernelIdeal Cert.KernelIdeal.Gen

variable {F : FTy → Type} [FloatOps F]

/-- Lane 0 of each row of a `[20, 1, 128]` array, as a `[20]`-vector. -/
def lane0 (a : FVec F S20x1x128 .f32) : FVec F S20 .f32 :=
  shapeCast S20 (extractStridedSlice S20x1x1 ![0, 0, 0] a slices_S20x1x128_S20x1x1_0_0_0) shapeCasts_S20x1x1_S20

/-- A count per batch entry divided by the cube's size `128³`. -/
def freq (p : FVec F S20 .f32) : FVec F S20 .f32 :=
  Host.divf p (broadcastInDim S20 ![] bcast_S_S20 (constant S_ .f32 0x4A000000#32))

/-- The mean over the batch of the squared difference of two frequencies. -/
def meanSqDiff (p q : FVec F S20 .f32) : FVec F S_ .f32 :=
  Host.divf (Host.reduceAdd (mulf (subf (freq p) (freq q)) (subf (freq p) (freq q))) (constant S_ .f32 0x00000000#32)
    reducesTo_S20_S_d0 h_S_) (constant S_ .f32 0x41A00000#32)

/-- The negated batch total divided by the element count `20 · 128³`. -/
def negMean (a : FVec F S20 .f32) : FVec F S_ .f32 :=
  Host.divf (Host.negf (Host.reduceAdd a (constant S_ .f32 0x00000000#32) reducesTo_S20_S_d0 h_S_)) (constant S_ .f32 0x4C200000#32)

/-- Lane 0 of row `b` of an array is its entry `(b, 0, 0)`. -/
theorem lane0_apply (a : FVec F S20x1x128 .f32) (b : S20.Idx) : lane0 a b = a (ix3 (b 0) 0 0) := by
  unfold lane0
  -- the re-laying `[20, 1, 1] → [20]` at `b` reads `(b, 0, 0)`: both have row-major position `b`
  rw [shapeCast_apply _ shapeCasts_S20x1x1_S20 b (ix3 (b 0) 0 0) (by
    rw [Shape.rowMajor_val_three, Shape.rowMajor_val_one]
    show ((b 0).val * 1 + 0) * 1 + 0 = (b 0).val
    omega)]
  -- the slice starts at `(0, 0, 0)`: its entry `(b, 0, 0)` is the array's
  unfold extractStridedSlice
  exact congrArg a (funext fun d => Fin.ext (by
    match d with
    | ⟨0, _⟩ => show 0 + (b 0).val = (b 0).val; omega
    | ⟨1, _⟩ => show 0 + 0 = 0; rfl
    | ⟨2, _⟩ => show 0 + 0 = 0; rfl))

/-- Lane 0 of an array that holds `g b` at every `(b, 0, l)` is the vector `g`. -/
theorem lane0_rows (g : Fin 20 → F .f32) : lane0 (fun i : S20x1x128.Idx => g (i 0)) = fun b : S20.Idx => g (b 0) := by
  funext b
  rw [lane0_apply]

end Cert.KernelIdeal.Tail

end
-- ==== Proof.KernelRun.lean ====
/-
  The idealized kernel's run, read.  With the three result arrays at their cube sums (the grid) and the arithmetic after the
  grid applied to lane 0 of their rows, every weakly fair execution ends with the two results at the mean squared frequency
  difference, and that plus the negated mean log-likelihood; the inputs end unchanged.
-/
import proofs.«166350_j8254927143083_1_alg».proof.Proof.Final
import proofs.«166350_j8254927143083_1_alg».proof.Proof.Tail
import Idealize.ShloMosaic.Lib.StableHlo.Run
import Idealize.ShloMosaic.Lib.Tactic

noncomputable section

namespace Cert.KernelIdeal.KernelRun

open Idealize.ShloMosaic Idealize.ShloMosaic.TcCoe Idealize.SL.Sem Idealize.ShloMosaic.ValueIdx Idealize.ShloMosaic.StableHlo
open Cert.KernelIdeal Cert.KernelIdeal.Gen Cert.BcePor Cert.KernelIdeal.Running Cert.KernelIdeal.Final Cert.KernelIdeal.Tail

variable (m : (ℓ : Loc nD τ sig) → Buf (Elt Ideal) ℓ) (ρ : Dev nD → PrngReg)

set_option maxRecDepth 8192 in
set_option maxHeartbeats 2000000 in
/-- The second result after the host tail. -/
theorem tail_second (c : Dev nD) :
    Pipeline.afterTail₀ cfgs (dats m) 0 (V0 m) [hostOps1] c main_v19
      = meanSqDiff (F := Ideal) (lane0 (lowArr m c)) (lane0 (trunc0Arr m c)) := by
  unfold Pipeline.afterTail₀
  show StableHlo.after hostOps1 _ (Proc.devRef .tc main_v19) = _
  after_results
  rw [show Pipeline.withArrays (cfgs 0).spec c (V0 m c) (fun w => (dats m 0 c).arrAt w (cfgs 0).N) (Proc.tc.devRef main_v2_1)
        = lowArr m c from (Pipeline.withArrays_arr spec0 launch0.win.arr_inj c _ _ 3).trans (low_final m c),
    show Pipeline.withArrays (cfgs 0).spec c (V0 m c) (fun w => (dats m 0 c).arrAt w (cfgs 0).N) (Proc.tc.devRef main_v2_2)
        = trunc0Arr m c from (Pipeline.withArrays_arr spec0 launch0.win.arr_inj c _ _ 4).trans (trunc0_final m c)]
  rfl

set_option maxRecDepth 8192 in
set_option maxHeartbeats 2000000 in
/-- The first result after the host tail. -/
theorem tail_first (c : Dev nD) :
    Pipeline.afterTail₀ cfgs (dats m) 0 (V0 m) [hostOps1] c main_v20
      = addf (meanSqDiff (F := Ideal) (lane0 (lowArr m c)) (lane0 (trunc0Arr m c))) (negMean (F := Ideal) (lane0 (bceArr m c))) := by
  unfold Pipeline.afterTail₀
  show StableHlo.after hostOps1 _ (Proc.devRef .tc main_v20) = _
  after_results
  rw [show Pipeline.withArrays (cfgs 0).spec c (V0 m c) (fun w => (dats m 0 c).arrAt w (cfgs 0).N) (Proc.tc.devRef main_v2_0)
        = bceArr m c from (Pipeline.withArrays_arr spec0 launch0.win.arr_inj c _ _ 2).trans (bce_final m c),
    show Pipeline.withArrays (cfgs 0).spec c (V0 m c) (fun w => (dats m 0 c).arrAt w (cfgs 0).N) (Proc.tc.devRef main_v2_1)
        = lowArr m c from (Pipeline.withArrays_arr spec0 launch0.win.arr_inj c _ _ 3).trans (low_final m c),
    show Pipeline.withArrays (cfgs 0).spec c (V0 m c) (fun w => (dats m 0 c).arrAt w (cfgs 0).N) (Proc.tc.devRef main_v2_2)
        = trunc0Arr m c from (Pipeline.withArrays_arr spec0 launch0.win.arr_inj c _ _ 4).trans (trunc0_final m c)]
  rfl

/-- Every weakly fair execution of the idealized kernel ends with its two results at these values, the inputs unchanged. -/
theorem run : θ_run defs (onTc (τ := τ) (main (F := Ideal))) ⟨m, fun _ => 0, ρ⟩ fun r => ∀ c : Dev nD,
      r.2.mem ((c.tc : Thread nD τ).loc main_v20)
        = addf (meanSqDiff (F := Ideal) (lane0 (lowArr m c)) (lane0 (trunc0Arr m c))) (negMean (F := Ideal) (lane0 (bceArr m c)))
      ∧ r.2.mem ((c.tc : Thread nD τ).loc main_v19) = meanSqDiff (F := Ideal) (lane0 (lowArr m c)) (lane0 (trunc0Arr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v20 (Pipeline.mem_restRefs_of main_v20 (by decide) (by decide))).trans (tail_first m c),
     ((h c).2 main_v19 (Pipeline.mem_restRefs_of main_v19 (by decide) (by decide))).trans (tail_second m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KernelRun

end
-- ==== Proof.SpecSums.lean ====
/-
  Re-indexing the sums over a batch entry's 128³ cube: the flat row-major sum over n < 128³ and the sum over every index of
  the whole input are both sums of the four slabs' nested sums (a bijection of index sets; addition on the extended reals is
  commutative and associative, so no finiteness is needed).
-/
import proofs.«166350_j8254927143083_1_alg».proof.Proof.Spec
import Mathlib.Algebra.BigOperators.Fin
import Mathlib.Algebra.BigOperators.Group.Finset.Sigma

noncomputable section

namespace Cert.BcePor

open Idealize.ShloMosaic Idealize.ShloMosaic.ValueIdx

/-- The flat position `n < 128³` and its coordinates `(c, i, j, k)`, `n = ((32·c + i)·128 + j)·128 + k`, determine each
    other: `c = n / (32·128²)`, `i = n / 128² mod 32`, `j = n / 128 mod 128`, `k = n mod 128`. -/
private def flatEquiv : Fin 2097152 ≃ Fin 4 × Fin 32 × Fin 128 × Fin 128 where
  toFun n :=
    (⟨n.val / 524288, by have := n.isLt; omega⟩, ⟨n.val / 16384 % 32, Nat.mod_lt _ (by omega)⟩,
      ⟨n.val / 128 % 128, Nat.mod_lt _ (by omega)⟩, ⟨n.val % 128, Nat.mod_lt _ (by omega)⟩)
  invFun p :=
    ⟨((32 * p.1.val + p.2.1.val) * 128 + p.2.2.1.val) * 128 + p.2.2.2.val, by
      have := p.1.isLt; have := p.2.1.isLt; have := p.2.2.1.isLt; have := p.2.2.2.isLt; omega⟩
  left_inv n := by
    apply Fin.ext
    show ((32 * (n.val / 524288) + n.val / 16384 % 32) * 128 + n.val / 128 % 128) * 128 + n.val % 128 = n.val
    omega
  right_inv p := by
    obtain ⟨c, i, j, k⟩ := p
    have := c.isLt; have := i.isLt; have := j.isLt; have := k.isLt
    refine Prod.ext (Fin.ext ?_) (Prod.ext (Fin.ext ?_) (Prod.ext (Fin.ext ?_) (Fin.ext ?_)))
    · show (((32 * c.val + i.val) * 128 + j.val) * 128 + k.val) / 524288 = c.val
      omega
    · show (((32 * c.val + i.val) * 128 + j.val) * 128 + k.val) / 16384 % 32 = i.val
      omega
    · show (((32 * c.val + i.val) * 128 + j.val) * 128 + k.val) / 128 % 128 = j.val
      omega
    · show (((32 * c.val + i.val) * 128 + j.val) * 128 + k.val) % 128 = k.val
      omega

/-- The flat entry at position `((32·c + i)·128 + j)·128 + k` is plane `i` of slab `c`, row `j`, column `k`. -/
private theorem flat5_flatEquiv_symm (b : Fin 20) (c : Fin 4) (i : Fin 32) (j k : Fin 128) :
    flat5 b (flatEquiv.symm (c, i, j, k)) = at5 b c i j k := by
  have := c.isLt; have := i.isLt; have := j.isLt; have := k.isLt
  funext a
  match a with
  | ⟨0, _⟩ => rfl
  | ⟨1, _⟩ => rfl
  | ⟨2, _⟩ =>
    apply Fin.ext
    show (((32 * c.val + i.val) * 128 + j.val) * 128 + k.val) / 16384 = 32 * c.val + i.val
    omega
  | ⟨3, _⟩ =>
    apply Fin.ext
    show (((32 * c.val + i.val) * 128 + j.val) * 128 + k.val) / 128 % 128 = j.val
    omega
  | ⟨4, _⟩ =>
    apply Fin.ext
    show (((32 * c.val + i.val) * 128 + j.val) * 128 + k.val) % 128 = k.val
    omega

/-- The flat row-major sum over a batch entry's cube is the sum of its four slabs. -/
theorem sum_flat (f : Vol.Idx → EReal) (b : Fin 20) : ∑ n : Fin 2097152, f (flat5 b n) = cube f b := by
  rw [← Equiv.sum_comp flatEquiv.symm (fun n => f (flat5 b n))]
  simp only [Fintype.sum_prod_type, flat5_flatEquiv_symm]
  rfl

/-- An index of the input and its coordinates `(b, c, i, j, k)` (the second coordinate, of extent 1, is 0; the third is
    `32·c + i`) determine each other. -/
private def volEquiv : Vol.Idx ≃ Fin 20 × Fin 4 × Fin 32 × Fin 128 × Fin 128 where
  toFun x :=
    (x 0, ⟨(x 2).val / 32, by have : (x 2).val < 128 := (x 2).isLt; omega⟩, ⟨(x 2).val % 32, Nat.mod_lt _ (by omega)⟩, x 3, x 4)
  invFun p := at5 p.1 p.2.1 p.2.2.1 p.2.2.2.1 p.2.2.2.2
  left_inv x := by
    have h2 : (x 2).val < 128 := (x 2).isLt
    have h1 : (x 1).val < 1 := (x 1).isLt
    funext a
    match a with
    | ⟨0, _⟩ => rfl
    | ⟨1, _⟩ =>
      apply Fin.ext
      show 0 = (x 1).val
      omega
    | ⟨2, _⟩ =>
      apply Fin.ext
      show 32 * ((x 2).val / 32) + (x 2).val % 32 = (x 2).val
      omega
    | ⟨3, _⟩ => rfl
    | ⟨4, _⟩ => rfl
  right_inv p := by
    obtain ⟨b, c, i, j, k⟩ := p
    have := c.isLt; have := i.isLt
    refine Prod.ext rfl (Prod.ext (Fin.ext ?_) (Prod.ext (Fin.ext ?_) (Prod.ext rfl rfl)))
    · show (32 * c.val + i.val) / 32 = c.val
      omega
    · show (32 * c.val + i.val) % 32 = i.val
      omega

/-- The sum over every index of the input is the sum over the batch of the cubes' sums. -/
theorem sum_all (f : Vol.Idx → EReal) : ∑ i : Vol.Idx, f i = ∑ b : Fin 20, cube f b := by
  rw [← Equiv.sum_comp volEquiv.symm f]
  simp only [Fintype.sum_prod_type]
  rfl

end Cert.BcePor

end
-- ==== Proof.SpecScalars.lean ====
/-
  The per-element functions in their other spelling, and the one law of the closing arithmetic.
  max is commutative and 0 − x = −x on the extended reals; "not (x > 1/2)" is "x ≤ 1/2" in a total order; a single bit read
  as an unsigned integer is the same bit zero-extended to 32 bits and read as a signed one; and division by a nonzero real
  constant commutes with negation (it is multiplication by the constant's inverse).
-/
import proofs.«166350_j8254927143083_1_alg».proof.Proof.Spec

noncomputable section

namespace Cert.BcePor

open Idealize.ShloMosaic

/-- The clamped log-likelihood with each maximum's operands swapped and `−x` for `0 − x`. -/
theorem bce_swapped (x y : EReal) :
    y * max (Ideal.ofBits .f32 0xC2C80000#32) (Ideal.log x)
      + (Ideal.ofBits .f32 0x3F800000#32 - y) * max (Ideal.ofBits .f32 0xC2C80000#32) (Ideal.log1p (-x)) = bce x y := by
  unfold bce
  rw [Ideal.ofBits_zero_f32, zero_sub, max_comm (Ideal.ofBits .f32 0xC2C80000#32) (Ideal.log x),
    max_comm (Ideal.ofBits .f32 0xC2C80000#32) (Ideal.log1p (-x))]

/-- `x ≤ 1/2` as: choose 1 where `x > 1/2` else 0, compare with 0, read the bit unsigned. -/
theorem low_select (x : EReal) :
    (((IntOp.cmpi .eq (Scalar.select (Ideal.cmp .ogt x (Ideal.ofBits .f32 0x3F000000#32)) (1#32) (0#32)) 0#32).toNat : ℝ) : EReal)
      = low x := by
  unfold low
  by_cases h : x ≤ Ideal.ofBits .f32 0x3F000000#32
  · have h' : ¬ (Ideal.ofBits .f32 0x3F000000#32 < x) := not_lt.mpr h
    simp [Ideal.cmp, IntOp.cmpi, Scalar.select, h, h']
  · have h' : Ideal.ofBits .f32 0x3F000000#32 < x := not_le.mp h
    simp [Ideal.cmp, IntOp.cmpi, Scalar.select, h, h']

/-- The truncation indicator with its bit read unsigned. -/
theorem trunc0_unsigned (y : EReal) :
    (((IntOp.cmpi .eq (Ideal.fptosi 32 y) 0#32).toNat : ℝ) : EReal) = trunc0 y := by
  unfold trunc0
  generalize IntOp.cmpi .eq (Ideal.fptosi 32 y) 0#32 = b
  have e1 : (1#1).toNat = 1 := by decide
  have e2 : ((1#1).setWidth 32).toInt = 1 := by decide
  have e3 : (0#1).toNat = 0 := by decide
  have e4 : ((0#1).setWidth 32).toInt = 0 := by decide
  by_cases hb : b = 1#1
  · subst hb
    rw [e1, e2]; norm_num
  · have hz := ValueIdx.eq_zero_of_ne_one hb
    subst hz
    rw [e3, e4]; norm_num

/-- The pattern `0x4C200000` denotes the real `41943040 = 20 · 128³`. -/
private theorem ofBits_count : Ideal.ofBits .f32 0x4C200000#32 = ((41943040 : ℝ) : EReal) := by
  simp [Ideal.ofBits, Ideal.ieee, -EReal.coe_mul]; norm_num

/-- Dividing by the element count `20 · 128³` (a nonzero real) commutes with negation. -/
theorem div_count_neg (s : EReal) :
    Ideal.div (-s) (Ideal.ofBits .f32 0x4C200000#32) = -(Ideal.div s (Ideal.ofBits .f32 0x4C200000#32)) := by
  rw [ofBits_count, Ideal.div_coe (by norm_num), Ideal.div_coe (by norm_num), neg_mul]

end Cert.BcePor

end
-- ==== Proof.RefSums.lean ====
/-
  The reference's three sums over the extended reals.  Its log-likelihood total, one sum over every input index, is the sum
  over the batch of the cubes' sums of the clamped log-likelihood; its two indicator counts per batch entry, each a flat
  row-major sum over the 128³ entries, are the cubes' sums of the two indicators.
-/
import proofs.«166350_j8254927143083_1_alg».proof.Proof.Gen.ReferenceIdeal.Read
import proofs.«166350_j8254927143083_1_alg».proof.Proof.Spec
import proofs.«166350_j8254927143083_1_alg».proof.Proof.SpecSums
import proofs.«166350_j8254927143083_1_alg».proof.Proof.SpecScalars

noncomputable section

namespace Cert.ReferenceIdeal.RefSums

open Idealize.ShloMosaic Idealize.ShloMosaic.ValueIdx
open Cert.ReferenceIdeal Cert.ReferenceIdeal.Read Cert.BcePor

/-- Entry `k` of batch entry `b`'s flat row is the input index `(b, 0, k / 128², k / 128 mod 128, k mod 128)`. -/
private theorem idx_flat20 (b : S20.Idx) (k : Fin 2097152) :
    idx_main_v20 (idx_main_v21 b k) = flat5 (b 0) k := by
  funext a
  have hb : (b 0).val < 20 := (b 0).isLt
  have hk : k.val < 2097152 := k.isLt
  match a with
  | ⟨0, _⟩ => exact Fin.ext (by show ((b 0).val * 2097152 + k.val) / 2097152 = (b 0).val; omega)
  | ⟨1, _⟩ => exact Fin.ext rfl
  | ⟨2, _⟩ => exact Fin.ext (by show ((b 0).val * 2097152 + k.val) / 16384 % 128 = k.val / 16384; omega)
  | ⟨3, _⟩ => exact Fin.ext (by show ((b 0).val * 2097152 + k.val) / 128 % 128 = k.val / 128 % 128; omega)
  | ⟨4, _⟩ => exact Fin.ext (by show ((b 0).val * 2097152 + k.val) % 128 = k.val % 128; omega)

/-- The same for the second flat layout (the two reshapes index alike). -/
private theorem idx_flat27 (b : S20.Idx) (k : Fin 2097152) :
    idx_main_v27 (idx_main_v28 b k) = flat5 (b 0) k := idx_flat20 b k

/-- Elementwise, the reference's widened comparison is the indicator of `x ≤ 1/2`. -/
private theorem low_elt (X : (⟨S20x1x128x128x128, .f32⟩ : BufTy).Contents (Elt Ideal)) (j : S20x1x128x128x128.Idx) :
    val_main_v19 (F := Ideal) X j = low (X j) := by
  rw [val_main_v19_apply, val_main_v18_apply, val_main_v15_apply, val_main_v14_apply, val_main_v13_apply,
    val_main_cst_4_apply, val_main_call2_v0_apply, val_main_c_apply, val_main_call2_v1_apply, val_main_c_5_apply,
    val_main_v17_apply, val_main_c_6_apply]
  exact low_select (X j)

/-- Elementwise, the reference's widened comparison of the truncated target with zero is the truncation indicator. -/
private theorem trunc0_elt (Y : (⟨S20x1x128x128x128, .f32⟩ : BufTy).Contents (Elt Ideal)) (j : S20x1x128x128x128.Idx) :
    val_main_v26 (F := Ideal) Y j = trunc0 (Y j) := by
  rw [val_main_v26_apply, val_main_v25_apply, val_main_v16_apply, val_main_v24_apply, val_main_c_9_apply]
  exact trunc0_unsigned (Y j)

/-- Elementwise, the reference's summand is the clamped log-likelihood. -/
private theorem bce_elt (X Y : (⟨S20x1x128x128x128, .f32⟩ : BufTy).Contents (Elt Ideal)) (j : S20x1x128x128x128.Idx) :
    val_main_v9 (F := Ideal) X Y j = bce (X j) (Y j) := by
  rw [val_main_v9_apply, val_main_v5_apply, val_main_v8_apply, val_main_v1_apply, val_main_v4_apply, val_main_v7_apply,
    val_main_v0_apply, val_main_v3_apply, val_main_v2_apply, val_main_v6_apply, val_main_cst_1_apply,
    val_main_call0_v1_apply, val_main_call0_v0_apply, val_main_cst_apply,
    val_main_call1_v1_apply, val_main_call1_v0_apply, val_main_cst_0_apply]
  exact bce_swapped (X j) (Y j)

/-- The reference's log-likelihood total: the batch's cubes' sums of the clamped log-likelihood. -/
theorem bce_total (X Y : (⟨S20x1x128x128x128, .f32⟩ : BufTy).Contents (Elt Ideal)) (i : S_.Idx) :
    val_main_v10 (F := Ideal) X Y i = ∑ b : Fin 20, cube (fun j => bce (X j) (Y j)) b := by
  rw [val_main_v10_apply, val_main_cst_2_apply, Ideal.ofBits_def, Ideal.ofBits_zero_f32, zero_add]
  rw [← sum_all (fun j => bce (X j) (Y j))]
  exact Finset.sum_congr rfl fun j _ => bce_elt X Y j

/-- The reference's count of `x ≤ 1/2` per batch entry. -/
theorem low_count (X : (⟨S20x1x128x128x128, .f32⟩ : BufTy).Contents (Elt Ideal)) (b : S20.Idx) :
    val_main_v21 (F := Ideal) X b = cube (fun j => low (X j)) (b 0) := by
  rw [val_main_v21_apply, val_main_cst_7_apply, Ideal.ofBits_def, Ideal.ofBits_zero_f32, zero_add]
  rw [← sum_flat (fun j => low (X j)) (b 0)]
  refine Finset.sum_congr rfl fun k _ => ?_
  rw [val_main_v20_apply, idx_flat20, low_elt]

/-- The reference's count of targets that truncate to zero per batch entry. -/
theorem trunc0_count (Y : (⟨S20x1x128x128x128, .f32⟩ : BufTy).Contents (Elt Ideal)) (b : S20.Idx) :
    val_main_v28 (F := Ideal) Y b = cube (fun j => trunc0 (Y j)) (b 0) := by
  rw [val_main_v28_apply, val_main_cst_10_apply, Ideal.ofBits_def, Ideal.ofBits_zero_f32, zero_add]
  rw [← sum_flat (fun j => trunc0 (Y j)) (b 0)]
  refine Finset.sum_congr rfl fun k _ => ?_
  rw [val_main_v27_apply, idx_flat27, trunc0_elt]

end Cert.ReferenceIdeal.RefSums

end
-- ==== Proof.Bridge.lean ====
/-
  The two programs' closing arithmetic agrees over the extended reals.  With the per-batch vectors at the cubes' sums, the
  kernel's mean squared frequency difference is the reference's by the same operations on equal vectors; and the kernel's
  (−Σ_b a_b) / (20 · 128³) is the reference's −((Σ over every index) / (20 · 128³)): the total over every index is the sum
  over the batch of the cubes' sums, and dividing by a nonzero real constant commutes with negation.
-/
import proofs.«166350_j8254927143083_1_alg».proof.Proof.Tail
import proofs.«166350_j8254927143083_1_alg».proof.Proof.RefSums
import proofs.«166350_j8254927143083_1_alg».proof.Proof.SpecScalars
import Mathlib.Algebra.BigOperators.Fin

noncomputable section

namespace Cert.Bridge

open Idealize.ShloMosaic Idealize.ShloMosaic.ValueIdx
open Cert.BcePor Cert.KernelIdeal.Tail

/-- The reference's count of `x ≤ 1/2` per batch entry is the vector of the cubes' sums. -/
private theorem low_vec (X : Vol.Idx → EReal) :
    (fun b : Cert.KernelIdeal.S20.Idx => cube (fun j => low (X j)) (b 0)) = Cert.ReferenceIdeal.Read.val_main_v21 (F := Ideal) X := by
  funext b; exact (Cert.ReferenceIdeal.RefSums.low_count X b).symm

/-- The reference's count of targets truncating to zero per batch entry is the vector of the cubes' sums. -/
private theorem trunc0_vec (Y : Vol.Idx → EReal) :
    (fun b : Cert.KernelIdeal.S20.Idx => cube (fun j => trunc0 (Y j)) (b 0)) = Cert.ReferenceIdeal.Read.val_main_v28 (F := Ideal) Y := by
  funext b; exact (Cert.ReferenceIdeal.RefSums.trunc0_count Y b).symm

/-- A sum over the rank-1 index set of extent 20 is the sum over its coordinate. -/
private theorem sum_idx1 (g : Fin 20 → EReal) : ∑ b : Cert.KernelIdeal.S20.Idx, g (b 0) = ∑ b : Fin 20, g b :=
  Fintype.sum_equiv ⟨fun b => b 0, fun a => ix1 a, fun b => (eq_ix1 b).symm, fun a => rfl⟩ _ _ (fun b => rfl)

/-- The batch total of a vector `g`, from zero. -/
private theorem total_eq (g : Fin 20 → EReal) (i : Cert.KernelIdeal.S_.Idx) :
    Host.reduceAdd (F := Ideal) (φ := .f32) (fun b : Cert.KernelIdeal.S20.Idx => g (b 0))
      (constant Cert.KernelIdeal.S_ .f32 0x00000000#32) Cert.KernelIdeal.Gen.reducesTo_S20_S_d0 Cert.KernelIdeal.Gen.h_S_ i
      = ∑ b : Fin 20, g b := by
  simp only [Host.reduceAdd, Ideal.hostReduceAdd_def]
  rw [Ideal.hostReduceAdd_total _ (fun b => b.elim0), constant_apply, Ideal.ofBits_zero_f32, zero_add, sum_idx1]

/-- The negated mean of the cubes' log-likelihood sums is the reference's negated mean over every index. -/
private theorem negMean_eq (X Y : Vol.Idx → EReal) :
    negMean (F := Ideal) (fun b : Cert.KernelIdeal.S20.Idx => cube (fun j => bce (X j) (Y j)) (b 0))
      = Cert.ReferenceIdeal.Read.val_main_v12 (F := Ideal) X Y := by
  funext i
  rw [Cert.ReferenceIdeal.Read.val_main_v12_apply, Cert.ReferenceIdeal.Read.val_main_v11_apply,
    Cert.ReferenceIdeal.RefSums.bce_total X Y i, Cert.ReferenceIdeal.Read.val_main_cst_3_apply]
  show Ideal.div (-(Host.reduceAdd (F := Ideal) (φ := .f32) (fun b : Cert.KernelIdeal.S20.Idx => cube (fun j => bce (X j) (Y j)) (b 0))
      (constant Cert.KernelIdeal.S_ .f32 0x00000000#32) Cert.KernelIdeal.Gen.reducesTo_S20_S_d0 Cert.KernelIdeal.Gen.h_S_ i))
      (Ideal.ofBits .f32 0x4C200000#32)
    = -(Ideal.div (∑ b : Fin 20, cube (fun j => bce (X j) (Y j)) b) (Ideal.ofBits .f32 0x4C200000#32))
  rw [total_eq (fun b => cube (fun j => bce (X j) (Y j)) b) i]
  exact div_count_neg _

/-- The second result: the mean squared difference of the two frequencies, from the cubes' sums, is the reference's. -/
theorem second_eq (X Y : Vol.Idx → EReal) :
    meanSqDiff (F := Ideal) (fun b : Cert.KernelIdeal.S20.Idx => cube (fun j => low (X j)) (b 0))
        (fun b : Cert.KernelIdeal.S20.Idx => cube (fun j => trunc0 (Y j)) (b 0))
      = Cert.ReferenceIdeal.Read.val_main_v34 (F := Ideal) X Y := by
  rw [low_vec, trunc0_vec]
  rfl

/-- The first result: that plus the negated mean log-likelihood is the reference's. -/
theorem first_eq (X Y : Vol.Idx → EReal) :
    addf (meanSqDiff (F := Ideal) (fun b : Cert.KernelIdeal.S20.Idx => cube (fun j => low (X j)) (b 0))
        (fun b : Cert.KernelIdeal.S20.Idx => cube (fun j => trunc0 (Y j)) (b 0)))
      (negMean (F := Ideal) (fun b : Cert.KernelIdeal.S20.Idx => cube (fun j => bce (X j) (Y j)) (b 0)))
      = Cert.ReferenceIdeal.Read.val_main_v35 (F := Ideal) X Y := by
  rw [second_eq, negMean_eq]
  rfl

end Cert.Bridge

end
-- ==== Proof.lean ====
/-
  Kernel and reference compute, from predictions x and targets y of shape [20, 1, 128, 128, 128],
      PORE = (1/20) · Σ_b ( #{x ≤ 1/2 in b} / 128³ − #{trunc(y) = 0 in b} / 128³ )²
  and
      PORE + ( −(Σ over all elements of  y · max(log x, −100) + (1 − y) · max(log(1 − x), −100)) / (20 · 128³) ).

  The kernel walks an 80-step grid: step t adds, for batch entry t / 4, the sums over slab t mod 4 (32 of the 128 planes) of
  the three per-element functions into three running blocks, resetting them at each entry's first slab and writing them back
  after its fourth; then it finishes on the three [20]-vectors.  The reference sums each whole cube (flat, row-major), and the
  log-likelihood over every index at once.  Over the extended reals the two agree: the per-element functions are the same
  (max commutes; 0 − x = −x; x ≤ 1/2 is the negation of x > 1/2 in a total order; one bit read signed after zero extension
  is the same bit read unsigned), a sum may be regrouped and re-indexed freely (+ is commutative and associative there, with
  0 + a = a), and (−s) / c = −(s / c) for the nonzero real constant c = 20 · 128³.  No step needs the inputs to be finite.

  The three frames are the generated ones (the reference's: its generated run with the results dropped); nothing was
  rewritten by the idealization, so its preservation claim is `True`.
-/
import proofs.«166350_j8254927143083_1_alg».proof.Defs
import proofs.«166350_j8254927143083_1_alg».proof.Proof.Gen.Kernel
import proofs.«166350_j8254927143083_1_alg».proof.Proof.Gen.Kernel.Skeleton
import proofs.«166350_j8254927143083_1_alg».proof.Proof.Gen.Kernel.Launch
import proofs.«166350_j8254927143083_1_alg».proof.Proof.Gen.Kernel.Points
import proofs.«166350_j8254927143083_1_alg».proof.Proof.Gen.Kernel.Frame
import proofs.«166350_j8254927143083_1_alg».proof.Proof.Gen.KernelIdeal
import proofs.«166350_j8254927143083_1_alg».proof.Proof.Gen.KernelIdeal.Skeleton
import proofs.«166350_j8254927143083_1_alg».proof.Proof.Gen.KernelIdeal.Launch
import proofs.«166350_j8254927143083_1_alg».proof.Proof.Gen.KernelIdeal.Points
import proofs.«166350_j8254927143083_1_alg».proof.Proof.Gen.KernelIdeal.Frame
import proofs.«166350_j8254927143083_1_alg».proof.Proof.Gen.ReferenceIdeal
import proofs.«166350_j8254927143083_1_alg».proof.Proof.Gen.Pre_finite_inputs
import proofs.«166350_j8254927143083_1_alg».proof.Proof.Gen.ReferenceIdeal.Run
import proofs.«166350_j8254927143083_1_alg».proof.Proof.Gen.ReferenceIdeal.Read
import proofs.«166350_j8254927143083_1_alg».proof.Proof.KernelRun
import proofs.«166350_j8254927143083_1_alg».proof.Proof.Bridge
import Idealize.ShloMosaic.Adequacy
import Idealize.ShloMosaic.Init

noncomputable section

namespace Cert.Proof

open Idealize.ShloMosaic Idealize.SL.Sem
open Cert.BcePor Cert.KernelIdeal.Tail Cert.KernelIdeal.Final Cert.KernelIdeal.Running

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Lane 0 of the rows of each result array is the vector of the batch entries' cube sums. -/
theorem lane0_low (m : (ℓ : Loc Cert.KernelIdeal.nD Cert.KernelIdeal.τ Cert.KernelIdeal.sig) → Buf (Elt Ideal) ℓ)
    (c : Dev Cert.KernelIdeal.nD) :
    lane0 (F := Ideal) (lowArr m c) = fun b : Cert.KernelIdeal.S20.Idx => cube (fun j => low (xin m c j)) (b 0) :=
  lane0_rows (F := Ideal) (fun b => cube (fun j => low (xin m c j)) b)

theorem lane0_trunc0 (m : (ℓ : Loc Cert.KernelIdeal.nD Cert.KernelIdeal.τ Cert.KernelIdeal.sig) → Buf (Elt Ideal) ℓ)
    (c : Dev Cert.KernelIdeal.nD) :
    lane0 (F := Ideal) (trunc0Arr m c) = fun b : Cert.KernelIdeal.S20.Idx => cube (fun j => trunc0 (yin m c j)) (b 0) :=
  lane0_rows (F := Ideal) (fun b => cube (fun j => trunc0 (yin m c j)) b)

theorem lane0_bce (m : (ℓ : Loc Cert.KernelIdeal.nD Cert.KernelIdeal.τ Cert.KernelIdeal.sig) → Buf (Elt Ideal) ℓ)
    (c : Dev Cert.KernelIdeal.nD) :
    lane0 (F := Ideal) (bceArr m c) = fun b : Cert.KernelIdeal.S20.Idx => cube (fun j => bce (xin m c j) (yin m c j)) (b 0) :=
  lane0_rows (F := Ideal) (fun b => cube (fun j => bce (xin m c j) (yin m c j)) b)

/-- The kernel's second result, from the cube sums, is the reference's second stage of the same inputs. -/
theorem second_result (m : (ℓ : Loc Cert.KernelIdeal.nD Cert.KernelIdeal.τ Cert.KernelIdeal.sig) → Buf (Elt Ideal) ℓ)
    (c : Dev Cert.KernelIdeal.nD) :
    meanSqDiff (F := Ideal) (lane0 (lowArr m c)) (lane0 (trunc0Arr m c))
      = Cert.ReferenceIdeal.Read.val_main_v34 (F := Ideal) (xin m c) (yin m c) := by
  rw [lane0_low, lane0_trunc0]
  exact Cert.Bridge.second_eq (xin m c) (yin m c)

/-- The kernel's first result likewise. -/
theorem first_result (m : (ℓ : Loc Cert.KernelIdeal.nD Cert.KernelIdeal.τ Cert.KernelIdeal.sig) → Buf (Elt Ideal) ℓ)
    (c : Dev Cert.KernelIdeal.nD) :
    addf (meanSqDiff (F := Ideal) (lane0 (lowArr m c)) (lane0 (trunc0Arr m c))) (negMean (F := Ideal) (lane0 (bceArr m c)))
      = Cert.ReferenceIdeal.Read.val_main_v35 (F := Ideal) (xin m c) (yin m c) := by
  rw [lane0_low, lane0_trunc0, lane0_bce]
  exact Cert.Bridge.first_eq (xin m c) (yin m c)

/-- From memories that agree on the inputs both idealized programs run, and end with equal results. -/
theorem algebraic : Cert.algebraic_KernelIdeal_ReferenceIdeal := by
  intro m ρ m' ρ' _ hagree
  refine ⟨fun c => addf (meanSqDiff (F := Ideal) (lane0 (lowArr m c)) (lane0 (trunc0Arr m c))) (negMean (F := Ideal) (lane0 (bceArr m c))),
    fun c => meanSqDiff (F := Ideal) (lane0 (lowArr m c)) (lane0 (trunc0Arr m c)), Cert.KernelIdeal.KernelRun.run m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [Cert.ReferenceIdeal.Read.val_main_v35_eq, (hagree c).1, (hagree c).2]
    exact (first_result m c).symm
  · rw [Cert.ReferenceIdeal.Read.val_main_v34_eq, (hagree c).1, (hagree c).2]
    exact (second_result m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
